-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) (main_arg2 : FVec F S8192x128 .f32) (main_arg3 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S256x128 : Shape := ⟨2, ![256, 128]⟩
abbrev S256x1 : Shape := ⟨2, ![256, 1]⟩
abbrev S1024x128 : Shape := ⟨2, ![1024, 128]⟩
abbrev S1x1024 : Shape := ⟨2, ![1, 1024]⟩
abbrev S256x1024 : Shape := ⟨2, ![256, 1024]⟩
abbrev S256 : Shape := ⟨1, ![256]⟩
abbrev S1 : Shape := ⟨1, ![1]⟩
abbrev S_ : Shape := ⟨0, ![]⟩

abbrev nBuf : Space → Nat
  | .hbm => 10
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S8192, .i32⟩
  | .hbm, ⟨4, _⟩ => ⟨S8192x1, .i32⟩
  | .hbm, ⟨5, _⟩ => ⟨S1x8192, .i32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S256x1, .i32⟩
  | .local _ .vmem, ⟨3, _⟩ => ⟨S256x1, .i32⟩
  | .local _ .vmem, ⟨4, _⟩ => ⟨S8192x128, .f32⟩
  | .local _ .vmem, ⟨5, _⟩ => ⟨S1x8192, .i32⟩
  | .local _ .vmem, ⟨6, _⟩ => ⟨S1x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k0_mult1 (k0_t1 : Fin k0_t1_loop.trips) : BitVec 32 :=
  let c0_i32_50 : BitVec 32 := 0#32
  let c0_i32 : BitVec 32 := 0#32
  let c1_i32 : BitVec 32 := 1#32
  let arg12 : BitVec 32 := Scf.iv c0_i32 c1_i32 k0_t1
  let c1_i32_49 : BitVec 32 := 1#32
  let v58 : BitVec 32 := Scalar.muli arg12 c1_i32_49
  let v59 : BitVec 32 := Scalar.addi c0_i32_50 v58
  let c1024_i32 : BitVec 32 := 1024#32
  let v60 : BitVec 32 := Scalar.muli v59 c1024_i32
  v60
def k0_off1 (k0_t1 : Fin k0_t1_loop.trips) : Fin 2 → Nat :=
  let c0_i32_50 : BitVec 32 := 0#32
  let c0_i32 : BitVec 32 := 0#32
  let c1_i32 : BitVec 32 := 1#32
  let arg12 : BitVec 32 := Scf.iv c0_i32 c1_i32 k0_t1
  let c1_i32_49 : BitVec 32 := 1#32
  let v58 : BitVec 32 := Scalar.muli arg12 c1_i32_49
  let v59 : BitVec 32 := Scalar.addi c0_i32_50 v58
  let c1024_i32 : BitVec 32 := 1024#32
  let v60 : BitVec 32 := Scalar.muli v59 c1024_i32
  let v61 : BitVec 32 := v60
  let v62 : Index := Scalar.indexCast v61
  let c0_51 : Index := 0#32
  ![v62.toNat, 0]
def k0_off2 (k0_t1 : Fin k0_t1_loop.trips) : Fin 2 → Nat :=
  let c0_52 : Index := 0#32
  let c0_i32_50 : BitVec 32 := 0#32
  let c0_i32 : BitVec 32 := 0#32
  let c1_i32 : BitVec 32 := 1#32
  let arg12 : BitVec 32 := Scf.iv c0_i32 c1_i32 k0_t1
  let c1_i32_49 : BitVec 32 := 1#32
  let v58 : BitVec 32 := Scalar.muli arg12 c1_i32_49
  let v59 : BitVec 32 := Scalar.addi c0_i32_50 v58
  let c1024_i32 : BitVec 32 := 1024#32
  let v60 : BitVec 32 := Scalar.muli v59 c1024_i32
  let v61 : BitVec 32 := v60
  let v64 : Index := Scalar.indexCast v61
  ![0, v64.toNat]
@[reducible] def k0_t2_loop : Scf.Loop 32 :=
  let c0_i32_25 : BitVec 32 := 0#32
  let c8_i32_26 : BitVec 32 := 8#32
  let v30 : BitVec 32 := Scalar.addi c0_i32_25 c8_i32_26
  let c1_i32_27 : BitVec 32 := 1#32
  ⟨c0_i32_25, v30, c1_i32_27⟩
def k0_mult2 (k0_t2 : Fin k0_t2_loop.trips) : BitVec 32 :=
  let c0_i32_50 : BitVec 32 := 0#32
  let c0_i32_25 : BitVec 32 := 0#32
  let c1_i32_27 : BitVec 32 := 1#32
  let arg12 : BitVec 32 := Scf.iv c0_i32_25 c1_i32_27 k0_t2
  let c1_i32_49 : BitVec 32 := 1#32
  let v58 : BitVec 32 := Scalar.muli arg12 c1_i32_49
  let v59 : BitVec 32 := Scalar.addi c0_i32_50 v58
  let c1024_i32 : BitVec 32 := 1024#32
  let v60 : BitVec 32 := Scalar.muli v59 c1024_i32
  v60
def k0_off3 (k0_t2 : Fin k0_t2_loop.trips) : Fin 2 → Nat :=
  let c0_i32_50 : BitVec 32 := 0#32
  let c0_i32_25 : BitVec 32 := 0#32
  let c1_i32_27 : BitVec 32 := 1#32
  let arg12 : BitVec 32 := Scf.iv c0_i32_25 c1_i32_27 k0_t2
  let c1_i32_49 : BitVec 32 := 1#32
  let v58 : BitVec 32 := Scalar.muli arg12 c1_i32_49
  let v59 : BitVec 32 := Scalar.addi c0_i32_50 v58
  let c1024_i32 : BitVec 32 := 1024#32
  let v60 : BitVec 32 := Scalar.muli v59 c1024_i32
  let v61 : BitVec 32 := v60
  let v62 : Index := Scalar.indexCast v61
  let c0_51 : Index := 0#32
  ![v62.toNat, 0]
def k0_off4 (k0_t2 : Fin k0_t2_loop.trips) : Fin 2 → Nat :=
  let c0_52 : Index := 0#32
  let c0_i32_50 : BitVec 32 := 0#32
  let c0_i32_25 : BitVec 32 := 0#32
  let c1_i32_27 : BitVec 32 := 1#32
  let arg12 : BitVec 32 := Scf.iv c0_i32_25 c1_i32_27 k0_t2
  let c1_i32_49 : BitVec 32 := 1#32
  let v58 : BitVec 32 := Scalar.muli arg12 c1_i32_49
  let v59 : BitVec 32 := Scalar.addi c0_i32_50 v58
  let c1024_i32 : BitVec 32 := 1024#32
  let v60 : BitVec 32 := Scalar.muli v59 c1024_i32
  let v61 : BitVec 32 := v60
  let v64 : Index := Scalar.indexCast v61
  ![0, v64.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S8192_S8192x1 : S8192.ShapeCasts S8192x1
  shapeCasts_S8192_S1x8192 : S8192.ShapeCasts S1x8192
  inb_S256x128_S256x128_0_0 : ∀ a, (![0, 0] : Fin 2 → Nat) a + S256x128.size a ≤ S256x128.size a
  h_S256x128 : 0 < S256x128.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  h_S1024x128 : 0 < S1024x128.numel
  h_S1x1024 : 0 < S1x1024.numel
  shapeCasts_S1x1024_S1x1024 : S1x1024.ShapeCasts S1x1024
  broadcasts_S1x1024_S256x1024 : S1x1024.Broadcasts S256x1024
  broadcasts_S256x1_S256x1024 : S256x1.Broadcasts S256x1024
  reduces_S256x1024_S256 : S256x1024.Reduces [1] S256
  shapeCasts_S256_S256x1 : S256.ShapeCasts S256x1
  natLt_1_32 : 1 < 32
  reduces_S256x1_S1 : S256x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S256x128_S1024x128_S256x1024_1_1_0_0_n_n_wf : DotDims.WF S256x128 S1024x128 S256x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S8192x128.size a
  k0_off2_inb : ∀ k0_t1 : Fin k0_t1_loop.trips, ∀ a, (k0_off2 k0_t1) a + S1x1024.size a ≤ S1x8192.size a
  k0_t2_ok : k0_t2_loop.OK
  k0_mult2_dvd : ∀ k0_t2 : Fin k0_t2_loop.trips, 1024 ∣ (k0_mult2 k0_t2).toNat
  k0_off3_inb : ∀ k0_t2 : Fin k0_t2_loop.trips, ∀ a, (k0_off3 k0_t2) a + S1024x128.size a ≤ S8192x128.size a
  k0_off4_inb : ∀ k0_t2 : Fin k0_t2_loop.trips, ∀ a, (k0_off4 k0_t2) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .f32 = 32 ∨ (Rect.block (s := S8192x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .i32 = 32 ∨ (Rect.block (s := S8192x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S1x8192 : Shape := ⟨2, ![1, 8192]⟩
abbrev S8192x1 : Shape := ⟨2, ![8192, 1]⟩
abbrev S_ : Shape := ⟨0, ![]⟩

abbrev nBuf : Space → Nat
  | .hbm => 90
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S8192, .i32⟩
  | .hbm, ⟨4, _⟩ => ⟨S128x8192, .f32⟩
  | .hbm, ⟨5, _⟩ => ⟨S8192x8192, .f32⟩
  | .hbm, ⟨6, _⟩ => ⟨S1x8192, .i32⟩
  | .hbm, ⟨7, _⟩ => ⟨S8192x1, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S_, .f32⟩
  | .hbm, ⟨12, _⟩ => ⟨S8192x8192, .f32⟩
  | .hbm, ⟨13, _⟩ => ⟨S8192x8192, .i1⟩
  | .hbm, ⟨14, _⟩ => ⟨S8192x8192, .i1⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .i1⟩
  | .hbm, ⟨35, _⟩ => ⟨S8192x8192, .i1⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .i1⟩
  | .hbm, ⟨41, _⟩ => ⟨S8192x8192, .i1⟩
  | .hbm, ⟨42, _⟩ => ⟨S_, .i1⟩
  | .hbm, ⟨43, _⟩ => ⟨S8192, .i1⟩
  | .hbm, ⟨44, _⟩ => ⟨S_, .i1⟩
  | .hbm, ⟨45, _⟩ => ⟨S8192, .i1⟩
  | .hbm, ⟨46, _⟩ => ⟨S8192, .i1⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_call2_v0 : Ref sig .tc := ⟨.hbm, 54, rfl⟩
abbrev main_call2_v1 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_cst_11 : Ref sig .tc := ⟨.hbm, 60, rfl⟩
abbrev main_v37 : Ref sig .tc := ⟨.hbm, 61, rfl⟩
abbrev main_v38 : Ref sig .tc := ⟨.hbm, 62, rfl⟩
abbrev main_cst_12 : Ref sig .tc := ⟨.hbm, 63, rfl⟩
abbrev main_v39 : Ref sig .tc := ⟨.hbm, 64, rfl⟩
abbrev main_v40 : Ref sig .tc := ⟨.hbm, 65, rfl⟩
abbrev main_cst_13 : Ref sig .tc := ⟨.hbm, 66, rfl⟩
abbrev main_call3_v0 : Ref sig .tc := ⟨.hbm, 67, rfl⟩
abbrev main_call3_v1 : Ref sig .tc := ⟨.hbm, 68, rfl⟩
abbrev main_v41 : Ref sig .tc := ⟨.hbm, 69, rfl⟩
abbrev main_v42 : Ref sig .tc := ⟨.hbm, 70, rfl⟩
abbrev main_cst_14 : Ref sig .tc := ⟨.hbm, 71, rfl⟩
abbrev main_v43 : Ref sig .tc := ⟨.hbm, 72, rfl⟩
abbrev main_v44 : Ref sig .tc := ⟨.hbm, 73, rfl⟩
abbrev main_cst_15 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_16 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_17 : Ref sig .tc := ⟨.hbm, 82, rfl⟩
abbrev main_call4_v0 : Ref sig .tc := ⟨.hbm, 83, rfl⟩
abbrev main_call4_v1 : Ref sig .tc := ⟨.hbm, 84, rfl⟩
abbrev main_v51 : Ref sig .tc := ⟨.hbm, 85, rfl⟩
abbrev main_cst_18 : Ref sig .tc := ⟨.hbm, 86, rfl⟩
abbrev main_v52 : Ref sig .tc := ⟨.hbm, 87, rfl⟩
abbrev main_cst_19 : Ref sig .tc := ⟨.hbm, 88, rfl⟩
abbrev main_v53 : Ref sig .tc := ⟨.hbm, 89, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Passes.lean ====
/-
  What one grid point of the kernel computes, as a term over its four blocks.

  A grid point holds 256 rows of the first matrix (`x0`, their labels `x1`) and the whole second matrix (`x2`, its
  labels `x3`). It walks the second matrix twice, 1024 rows at a time. The first walk keeps, per row of the tile, a
  running minimum and a running maximum (two 256-entry columns that start at `+∞` and `-∞`): `pass1`. The second
  walk, given those two columns, keeps four running sums per row (they start at zero): `pass2`. The tile's result is
  one number added to what the output cell held before: `tileOut`.

  Each walk is a recursion over its trips whose step is the kernel's own arithmetic for one trip; nothing here says
  what the arithmetic means. The two statements at the end say that this term IS what the kernel's body leaves in
  the output cell, at the first grid point (where the cell is first zeroed) and at every later one.
-/
import proofs.«147075_j1769526526575_1_alg».proof.Proof.Gen.KernelIdeal.Frame
import Idealize.ShloMosaic.Lib.Pipeline.Value

set_option maxRecDepth 16384

noncomputable section

namespace Cert.KernelIdeal.Passes

open Cert.KernelIdeal Cert.KernelIdeal.Gen Idealize.ShloMosaic Idealize.ShloMosaic.TcCoe

variable {F : FTy → Type} [FloatOps F]

section Term

variable (x0 : Vec F S256x128 .f32) (x1 : Vec F S256x1 .i32) (x2 : Vec F S8192x128 .f32) (x3 : Vec F S1x8192 .i32)

/-- Rows `1024 k …` of the second matrix, as trip `k` of the first walk loads them. -/
abbrev rows1 (k : Fin k0_t1_loop.trips) : Vec F S1024x128 .f32 :=
  View.ld (Val := Elt F) x2 (Rect.unit (s := S8192x128) (k0_off1 k) S1024x128.size (k0_off1_inb k))
/-- Their labels. -/
abbrev lbls1 (k : Fin k0_t1_loop.trips) : Vec F S1x1024 .i32 :=
  View.ld (Val := Elt F) x3 (Rect.unit (s := S1x8192) (k0_off2 k) S1x1024.size (k0_off2_inb k))
/-- Rows `1024 k …` of the second matrix, as trip `k` of the second walk loads them. -/
abbrev rows2 (k : Fin k0_t2_loop.trips) : Vec F S1024x128 .f32 :=
  View.ld (Val := Elt F) x2 (Rect.unit (s := S8192x128) (k0_off3 k) S1024x128.size (k0_off3_inb k))
/-- Their labels. -/
abbrev lbls2 (k : Fin k0_t2_loop.trips) : Vec F S1x1024 .i32 :=
  View.ld (Val := Elt F) x3 (Rect.unit (s := S1x8192) (k0_off4 k) S1x1024.size (k0_off4_inb k))

/-- The running minimum and maximum columns after `k` trips of the first walk. -/
def pass1 : ℕ → Vec F S256x1 .f32 × Vec F S256x1 .f32
  | 0 => (k0_pay8, k0_pay9)
  | k + 1 =>
    if h : k < k0_t1_loop.trips then
      (k0_pay12 x0 x1 (rows1 x2 ⟨k, h⟩) (lbls1 x3 ⟨k, h⟩) (pass1 k).1,
       k0_pay13 x0 x1 (rows1 x2 ⟨k, h⟩) (lbls1 x3 ⟨k, h⟩) (pass1 k).2)
    else pass1 k

/-- The four running sums after `k` trips of the second walk, given the first walk's minimum column `lo` and
    maximum column `hi`: the mined positive pairs' exponentials, the mined negative pairs', and the two counts. -/
def pass2 (lo hi : Vec F S256x1 .f32) :
    ℕ → Vec F S256x1 .f32 × Vec F S256x1 .f32 × Vec F S256x1 .f32 × Vec F S256x1 .f32
  | 0 => (k0_pay14, k0_pay15, k0_pay16, k0_pay17)
  | k + 1 =>
    if h : k < k0_t2_loop.trips then
      (k0_pay18 (k0_pay5 x0 (k0_pay7 x1) hi (rows2 x2 ⟨k, h⟩) (lbls2 x3 ⟨k, h⟩)) (pass2 lo hi k).1,
       k0_pay19 (k0_pay6 x0 (k0_pay7 x1) lo (rows2 x2 ⟨k, h⟩) (lbls2 x3 ⟨k, h⟩)) (pass2 lo hi k).2.1,
       k0_pay20 (k0_pay4 x0 (k0_pay7 x1) hi (rows2 x2 ⟨k, h⟩) (lbls2 x3 ⟨k, h⟩)) (pass2 lo hi k).2.2.1,
       k0_pay21 (k0_pay3 x0 (k0_pay7 x1) lo (rows2 x2 ⟨k, h⟩) (lbls2 x3 ⟨k, h⟩)) (pass2 lo hi k).2.2.2)
    else pass2 lo hi k

/-- What the grid point leaves in the output cell, over what the cell held (`prev`). -/
def tileOut (prev : Vec F S1x1 .f32) : Vec F S1x1 .f32 :=
  k0_pay23
    (pass2 x0 x1 x2 x3 (pass1 x0 x1 x2 x3 k0_t1_loop.trips).1 (pass1 x0 x1 x2 x3 k0_t1_loop.trips).2 k0_t2_loop.trips).1
    (pass2 x0 x1 x2 x3 (pass1 x0 x1 x2 x3 k0_t1_loop.trips).1 (pass1 x0 x1 x2 x3 k0_t1_loop.trips).2 k0_t2_loop.trips).2.1
    (pass2 x0 x1 x2 x3 (pass1 x0 x1 x2 x3 k0_t1_loop.trips).1 (pass1 x0 x1 x2 x3 k0_t1_loop.trips).2 k0_t2_loop.trips).2.2.1
    (pass2 x0 x1 x2 x3 (pass1 x0 x1 x2 x3 k0_t1_loop.trips).1 (pass1 x0 x1 x2 x3 k0_t1_loop.trips).2 k0_t2_loop.trips).2.2.2
    prev

end Term

/-! ## Reading a buffer back

Every buffer of the body is loaded and stored whole: through the rectangle at offsets zero of the buffer's own
sizes. A load through it reads the contents, and a store through it, made last, leaves its payload whatever was
stored before. -/

private theorem hz2 : (![0, 0] : Fin 2 → Nat) = fun _ => 0 := funext fun a => by fin_cases a <;> rfl

/-- A load of the whole block, after stores the last of which filled the whole block with `w`, reads `w`. -/
private theorem readAt_writes_cons_whole {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e)
    (L : List (View.Piece Val S e)) :
    v.readAt Val (Rect.unit off S.size inb).toLoadRect (v.writes Val f (⟨Rect.unit off S.size inb, w⟩ :: L)) = w := by
  rw [View.readAt_eq_ld,
    View.read_writes_eq_canon v f _ (fun y => ⟨_, List.mem_cons_self, View.mem_set_unit_zero h inb y⟩),
    View.canon_cons_unit_zero h inb, View.ld_unit_zero h inb]

/-- A load through a rectangle of a whole buffer that holds `X` reads `X` at the rectangle. -/
private theorem readAt_unread {S : Shape} {e : EltTy} (m : Memref sig .tc .vmem S e) (hm : m.IsWhole) (r : Rect S)
    (X : S.Idx → Elt F e) : View.readAt (Elt F) m.view r.toLoadRect (hm.unread X) = View.ld (Val := Elt F) X r := by
  rw [View.readAt_eq_ld, hm.read_unread]

/-- A load of the whole of a whole buffer that holds `X` reads `X`. -/
private theorem readAt_unread_whole {S : Shape} {e : EltTy} (m : Memref sig .tc .vmem S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h inb]

/-- What a load of the whole of a column scratch reads. -/
private abbrev rd (m : Memref sig .tc .vmem S256x1 .f32) (f : BufTy.Contents (Elt F) m.view.ty) : Vec F S256x1 .f32 :=
  View.readAt (Elt F) m.view (Rect.unit (s := S256x1) ![0, 0] S256x1.size inb_S256x1_S256x1_0_0).toLoadRect f

/-- The store of a whole column. -/
private abbrev col (w : Vec F S256x1 .f32) : View.Piece (Elt F) S256x1 .f32 :=
  ⟨Rect.unit (s := S256x1) ![0, 0] S256x1.size inb_S256x1_S256x1_0_0, w⟩

private theorem rd_writes_col (m : Memref sig .tc .vmem S256x1 .f32) (f : BufTy.Contents (Elt F) m.view.ty)
    (w : Vec F S256x1 .f32) (L : List (View.Piece (Elt F) S256x1 .f32)) :
    rd m (m.view.writes (Elt F) f (col w :: L)) = w :=
  readAt_writes_cons_whole m.view f hz2 inb_S256x1_S256x1_0_0 w L

section Walks

variable (𝒱 : Variants) (c : Dev nD) (bd : Option 𝒱.V) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S1x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole)

/-! ## One trip of each walk

A trip stores each of its columns whole, once: the payload is the trip's arithmetic on the rows it loads and on
what the column held. -/

/-- Trip `k` of the first walk stores the new minimum column, -/
private theorem trip1_fst (v0 : Vec F S256x128 .f32) (v1 : Vec F S256x1 .i32) (X3 : BufTy.Contents (Elt F) arg3.view.ty)
    (X4 : BufTy.Contents (Elt F) arg4.view.ty) (k : Fin k0_t1_loop.trips) (f6 : BufTy.Contents (Elt F) arg6.view.ty)
    (f7 : BufTy.Contents (Elt F) arg7.view.ty) :
    (trip_k0_t1 (F := F) 𝒱 c bd i arg1 harg1 arg2 harg2 arg3 harg3 arg4 harg4 arg5 harg5 arg6 harg6 arg7 harg7 arg8 harg8 arg9 harg9 arg10 harg10 arg11 harg11 v0 v1 X3 X4 k).1 f6 f7
      = [col (k0_pay12 v0 v1
          (View.readAt (Elt F) arg3.view (Rect.unit (s := S8192x128) (k0_off1 k) S1024x128.size (k0_off1_inb k)).toLoadRect X3)
          (View.readAt (Elt F) arg4.view (Rect.unit (s := S1x8192) (k0_off2 k) S1x1024.size (k0_off2_inb k)).toLoadRect X4)
          (rd arg6 f6))] := by
  unfold trip_k0_t1; rfl

/-- and the new maximum column. -/
private theorem trip1_snd (v0 : Vec F S256x128 .f32) (v1 : Vec F S256x1 .i32) (X3 : BufTy.Contents (Elt F) arg3.view.ty)
    (X4 : BufTy.Contents (Elt F) arg4.view.ty) (k : Fin k0_t1_loop.trips) (f6 : BufTy.Contents (Elt F) arg6.view.ty)
    (f7 : BufTy.Contents (Elt F) arg7.view.ty) :
    (trip_k0_t1 (F := F) 𝒱 c bd i arg1 harg1 arg2 harg2 arg3 harg3 arg4 harg4 arg5 harg5 arg6 harg6 arg7 harg7 arg8 harg8 arg9 harg9 arg10 harg10 arg11 harg11 v0 v1 X3 X4 k).2.1 f6 f7
      = [col (k0_pay13 v0 v1
          (View.readAt (Elt F) arg3.view (Rect.unit (s := S8192x128) (k0_off1 k) S1024x128.size (k0_off1_inb k)).toLoadRect X3)
          (View.readAt (Elt F) arg4.view (Rect.unit (s := S1x8192) (k0_off2 k) S1x1024.size (k0_off2_inb k)).toLoadRect X4)
          (rd arg7 f7))] := by
  unfold trip_k0_t1; rfl

/-- Trip `k` of the second walk adds to the sum of the mined positive pairs, -/
private theorem trip2_1 (a0 : BitVec 32) (v0 : Vec F S256x128 .f32) (v2 : IVec S256x1 32) (v12 v13 : Vec F S256x1 .f32)
    (X3 : BufTy.Contents (Elt F) arg3.view.ty) (X4 : BufTy.Contents (Elt F) arg4.view.ty) (k : Fin k0_t2_loop.trips)
    (f8 : BufTy.Contents (Elt F) arg8.view.ty) (f9 : BufTy.Contents (Elt F) arg9.view.ty)
    (f10 : BufTy.Contents (Elt F) arg10.view.ty) (f11 : BufTy.Contents (Elt F) arg11.view.ty) :
    (trip_k0_t2 (F := F) 𝒱 c bd i arg1 harg1 arg2 harg2 arg3 harg3 arg4 harg4 arg5 harg5 arg6 harg6 arg7 harg7 arg8 harg8 arg9 harg9 arg10 harg10 arg11 harg11 a0 v0 v2 v12 v13 X3 X4 k).1 f8 f9 f10 f11
      = [col (k0_pay18 (k0_pay5 v0 v2 v13
          (View.readAt (Elt F) arg3.view (Rect.unit (s := S8192x128) (k0_off3 k) S1024x128.size (k0_off3_inb k)).toLoadRect X3)
          (View.readAt (Elt F) arg4.view (Rect.unit (s := S1x8192) (k0_off4 k) S1x1024.size (k0_off4_inb k)).toLoadRect X4)) (rd arg8 f8))] := by
  unfold trip_k0_t2; rfl

/-- to the sum of the mined negative pairs, -/
private theorem trip2_2 (a0 : BitVec 32) (v0 : Vec F S256x128 .f32) (v2 : IVec S256x1 32) (v12 v13 : Vec F S256x1 .f32)
    (X3 : BufTy.Contents (Elt F) arg3.view.ty) (X4 : BufTy.Contents (Elt F) arg4.view.ty) (k : Fin k0_t2_loop.trips)
    (f8 : BufTy.Contents (Elt F) arg8.view.ty) (f9 : BufTy.Contents (Elt F) arg9.view.ty)
    (f10 : BufTy.Contents (Elt F) arg10.view.ty) (f11 : BufTy.Contents (Elt F) arg11.view.ty) :
    (trip_k0_t2 (F := F) 𝒱 c bd i arg1 harg1 arg2 harg2 arg3 harg3 arg4 harg4 arg5 harg5 arg6 harg6 arg7 harg7 arg8 harg8 arg9 harg9 arg10 harg10 arg11 harg11 a0 v0 v2 v12 v13 X3 X4 k).2.1 f8 f9 f10 f11
      = [col (k0_pay19 (k0_pay6 v0 v2 v12
          (View.readAt (Elt F) arg3.view (Rect.unit (s := S8192x128) (k0_off3 k) S1024x128.size (k0_off3_inb k)).toLoadRect X3)
          (View.readAt (Elt F) arg4.view (Rect.unit (s := S1x8192) (k0_off4 k) S1x1024.size (k0_off4_inb k)).toLoadRect X4)) (rd arg9 f9))] := by
  unfold trip_k0_t2; rfl

/-- and to the two counts. -/
private theorem trip2_3 (a0 : BitVec 32) (v0 : Vec F S256x128 .f32) (v2 : IVec S256x1 32) (v12 v13 : Vec F S256x1 .f32)
    (X3 : BufTy.Contents (Elt F) arg3.view.ty) (X4 : BufTy.Contents (Elt F) arg4.view.ty) (k : Fin k0_t2_loop.trips)
    (f8 : BufTy.Contents (Elt F) arg8.view.ty) (f9 : BufTy.Contents (Elt F) arg9.view.ty)
    (f10 : BufTy.Contents (Elt F) arg10.view.ty) (f11 : BufTy.Contents (Elt F) arg11.view.ty) :
    (trip_k0_t2 (F := F) 𝒱 c bd i arg1 harg1 arg2 harg2 arg3 harg3 arg4 harg4 arg5 harg5 arg6 harg6 arg7 harg7 arg8 harg8 arg9 harg9 arg10 harg10 arg11 harg11 a0 v0 v2 v12 v13 X3 X4 k).2.2.1 f8 f9 f10 f11
      = [col (k0_pay20 (k0_pay4 v0 v2 v13
          (View.readAt (Elt F) arg3.view (Rect.unit (s := S8192x128) (k0_off3 k) S1024x128.size (k0_off3_inb k)).toLoadRect X3)
          (View.readAt (Elt F) arg4.view (Rect.unit (s := S1x8192) (k0_off4 k) S1x1024.size (k0_off4_inb k)).toLoadRect X4)) (rd arg10 f10))] := by
  unfold trip_k0_t2; rfl

private theorem trip2_4 (a0 : BitVec 32) (v0 : Vec F S256x128 .f32) (v2 : IVec S256x1 32) (v12 v13 : Vec F S256x1 .f32)
    (X3 : BufTy.Contents (Elt F) arg3.view.ty) (X4 : BufTy.Contents (Elt F) arg4.view.ty) (k : Fin k0_t2_loop.trips)
    (f8 : BufTy.Contents (Elt F) arg8.view.ty) (f9 : BufTy.Contents (Elt F) arg9.view.ty)
    (f10 : BufTy.Contents (Elt F) arg10.view.ty) (f11 : BufTy.Contents (Elt F) arg11.view.ty) :
    (trip_k0_t2 (F := F) 𝒱 c bd i arg1 harg1 arg2 harg2 arg3 harg3 arg4 harg4 arg5 harg5 arg6 harg6 arg7 harg7 arg8 harg8 arg9 harg9 arg10 harg10 arg11 harg11 a0 v0 v2 v12 v13 X3 X4 k).2.2.2.1 f8 f9 f10 f11
      = [col (k0_pay21 (k0_pay3 v0 v2 v12
          (View.readAt (Elt F) arg3.view (Rect.unit (s := S8192x128) (k0_off3 k) S1024x128.size (k0_off3_inb k)).toLoadRect X3)
          (View.readAt (Elt F) arg4.view (Rect.unit (s := S1x8192) (k0_off4 k) S1x1024.size (k0_off4_inb k)).toLoadRect X4)) (rd arg11 f11))] := by
  unfold trip_k0_t2; rfl

/-! ## The first walk -/

/-- One more trip of the first walk, in the term. -/
private theorem pass1_succ (x0 : Vec F S256x128 .f32) (x1 : Vec F S256x1 .i32) (x2 : Vec F S8192x128 .f32)
    (x3 : Vec F S1x8192 .i32) (k : Fin k0_t1_loop.trips) :
    pass1 x0 x1 x2 x3 (k.val + 1)
      = (k0_pay12 x0 x1 (rows1 x2 k) (lbls1 x3 k) (pass1 x0 x1 x2 x3 k.val).1,
         k0_pay13 x0 x1 (rows1 x2 k) (lbls1 x3 k) (pass1 x0 x1 x2 x3 k.val).2) := by
  rw [pass1]; exact dif_pos k.isLt

/-- After `k` trips of the first walk, over columns that read the two fills, the two columns read what the
    term says: by induction on the trips, each trip's store being whole and last. -/
private theorem walk1 (x0 : Vec F S256x128 .f32) (x1 : Vec F S256x1 .i32) (x2 : Vec F S8192x128 .f32) (x3 : Vec F S1x8192 .i32)
    (G6 : BufTy.Contents (Elt F) arg6.view.ty) (G7 : BufTy.Contents (Elt F) arg7.view.ty)
    (h6 : rd arg6 G6 = k0_pay8) (h7 : rd arg7 G7 = k0_pay9) :
    ∀ k, k ≤ k0_t1_loop.trips →
      rd arg6 (arg6.view.writes (Elt F) G6
          (pb_k0_t1 (F := F) 𝒱 c bd i arg1 harg1 arg2 harg2 arg3 harg3 arg4 harg4 arg5 harg5 arg6 harg6 arg7 harg7 arg8 harg8 arg9 harg9 arg10 harg10 arg11 harg11 x0 x1 (harg3.unread x2) (harg4.unread x3) G6 G7 k).1)
        = (pass1 x0 x1 x2 x3 k).1
      ∧ rd arg7 (arg7.view.writes (Elt F) G7
          (pb_k0_t1 (F := F) 𝒱 c bd i arg1 harg1 arg2 harg2 arg3 harg3 arg4 harg4 arg5 harg5 arg6 harg6 arg7 harg7 arg8 harg8 arg9 harg9 arg10 harg10 arg11 harg11 x0 x1 (harg3.unread x2) (harg4.unread x3) G6 G7 k).2)
        = (pass1 x0 x1 x2 x3 k).2
  | 0, _ => ⟨h6, h7⟩
  | k + 1, hk => by
    have hk' : k < k0_t1_loop.trips := hk
    obtain ⟨i6, i7⟩ := walk1 x0 x1 x2 x3 G6 G7 h6 h7 k (Nat.le_of_lt hk')
    rw [pb_k0_t1_succ (F := F) 𝒱 c bd i arg1 harg1 arg2 harg2 arg3 harg3 arg4 harg4 arg5 harg5 arg6 harg6 arg7 harg7 arg8 harg8 arg9 harg9 arg10 harg10 arg11 harg11 x0 x1 (harg3.unread x2) (harg4.unread x3) G6 G7 ⟨k, hk'⟩,
      pass1_succ x0 x1 x2 x3 ⟨k, hk'⟩]
    dsimp only
    constructor
    · rw [trip1_fst, List.singleton_append, rd_writes_col, readAt_unread, readAt_unread, i6]
    · rw [trip1_snd, List.singleton_append, rd_writes_col, readAt_unread, readAt_unread, i7]

/-! ## The second walk -/

/-- One more trip of the second walk, in the term. -/
private theorem pass2_succ (x0 : Vec F S256x128 .f32) (x1 : Vec F S256x1 .i32) (x2 : Vec F S8192x128 .f32)
    (x3 : Vec F S1x8192 .i32) (lo hi : Vec F S256x1 .f32) (k : Fin k0_t2_loop.trips) :
    pass2 x0 x1 x2 x3 lo hi (k.val + 1)
      = (k0_pay18 (k0_pay5 x0 (k0_pay7 x1) hi (rows2 x2 k) (lbls2 x3 k)) (pass2 x0 x1 x2 x3 lo hi k.val).1,
         k0_pay19 (k0_pay6 x0 (k0_pay7 x1) lo (rows2 x2 k) (lbls2 x3 k)) (pass2 x0 x1 x2 x3 lo hi k.val).2.1,
         k0_pay20 (k0_pay4 x0 (k0_pay7 x1) hi (rows2 x2 k) (lbls2 x3 k)) (pass2 x0 x1 x2 x3 lo hi k.val).2.2.1,
         k0_pay21 (k0_pay3 x0 (k0_pay7 x1) lo (rows2 x2 k) (lbls2 x3 k)) (pass2 x0 x1 x2 x3 lo hi k.val).2.2.2) := by
  rw [pass2]; exact dif_pos k.isLt

/-- After `k` trips of the second walk, over columns that read the four zero fills, the four columns read what
    the term says: the same induction, four columns wide. -/
private theorem walk2 (a0 : BitVec 32) (x0 : Vec F S256x128 .f32) (x1 : Vec F S256x1 .i32) (x2 : Vec F S8192x128 .f32)
    (x3 : Vec F S1x8192 .i32) (lo hi : Vec F S256x1 .f32)
    (G8 : BufTy.Contents (Elt F) arg8.view.ty) (G9 : BufTy.Contents (Elt F) arg9.view.ty)
    (G10 : BufTy.Contents (Elt F) arg10.view.ty) (G11 : BufTy.Contents (Elt F) arg11.view.ty)
    (h8 : rd arg8 G8 = k0_pay14) (h9 : rd arg9 G9 = k0_pay15) (h10 : rd arg10 G10 = k0_pay16)
    (h11 : rd arg11 G11 = k0_pay17) :
    ∀ k, k ≤ k0_t2_loop.trips →
      rd arg8 (arg8.view.writes (Elt F) G8 (pb_k0_t2 (F := F) 𝒱 c bd i arg1 harg1 arg2 harg2 arg3 harg3 arg4 harg4 arg5 harg5 arg6 harg6 arg7 harg7 arg8 harg8 arg9 harg9 arg10 harg10 arg11 harg11 a0 x0 (k0_pay7 x1) lo hi (harg3.unread x2) (harg4.unread x3) G8 G9 G10 G11 k).1) = (pass2 x0 x1 x2 x3 lo hi k).1
      ∧ rd arg9 (arg9.view.writes (Elt F) G9 (pb_k0_t2 (F := F) 𝒱 c bd i arg1 harg1 arg2 harg2 arg3 harg3 arg4 harg4 arg5 harg5 arg6 harg6 arg7 harg7 arg8 harg8 arg9 harg9 arg10 harg10 arg11 harg11 a0 x0 (k0_pay7 x1) lo hi (harg3.unread x2) (harg4.unread x3) G8 G9 G10 G11 k).2.1) = (pass2 x0 x1 x2 x3 lo hi k).2.1
      ∧ rd arg10 (arg10.view.writes (Elt F) G10 (pb_k0_t2 (F := F) 𝒱 c bd i arg1 harg1 arg2 harg2 arg3 harg3 arg4 harg4 arg5 harg5 arg6 harg6 arg7 harg7 arg8 harg8 arg9 harg9 arg10 harg10 arg11 harg11 a0 x0 (k0_pay7 x1) lo hi (harg3.unread x2) (harg4.unread x3) G8 G9 G10 G11 k).2.2.1) = (pass2 x0 x1 x2 x3 lo hi k).2.2.1
      ∧ rd arg11 (arg11.view.writes (Elt F) G11 (pb_k0_t2 (F := F) 𝒱 c bd i arg1 harg1 arg2 harg2 arg3 harg3 arg4 harg4 arg5 harg5 arg6 harg6 arg7 harg7 arg8 harg8 arg9 harg9 arg10 harg10 arg11 harg11 a0 x0 (k0_pay7 x1) lo hi (harg3.unread x2) (harg4.unread x3) G8 G9 G10 G11 k).2.2.2) = (pass2 x0 x1 x2 x3 lo hi k).2.2.2
  | 0, _ => ⟨h8, h9, h10, h11⟩
  | k + 1, hk => by
    have hk' : k < k0_t2_loop.trips := hk
    obtain ⟨i8, i9, i10, i11⟩ := walk2 a0 x0 x1 x2 x3 lo hi G8 G9 G10 G11 h8 h9 h10 h11 k (Nat.le_of_lt hk')
    rw [pb_k0_t2_succ (F := F) 𝒱 c bd i arg1 harg1 arg2 harg2 arg3 harg3 arg4 harg4 arg5 harg5 arg6 harg6 arg7 harg7 arg8 harg8 arg9 harg9 arg10 harg10 arg11 harg11 a0 x0 (k0_pay7 x1) lo hi (harg3.unread x2) (harg4.unread x3) G8 G9 G10 G11 ⟨k, hk'⟩,
      pass2_succ x0 x1 x2 x3 lo hi ⟨k, hk'⟩]
    dsimp only
    refine ⟨?_, ?_, ?_, ?_⟩
    · rw [trip2_1, List.singleton_append, rd_writes_col, readAt_unread, readAt_unread, i8]
    · rw [trip2_2, List.singleton_append, rd_writes_col, readAt_unread, readAt_unread, i9]
    · rw [trip2_3, List.singleton_append, rd_writes_col, readAt_unread, readAt_unread, i10]
    · rw [trip2_4, List.singleton_append, rd_writes_col, readAt_unread, readAt_unread, i11]

/-! ## The two walks as the body runs them

The body fills the two columns of the first walk, walks, and loads them back; then fills the four columns of the
second walk, walks with the two columns it loaded, and loads the four back. Each fill is a whole store made before
the trips' stores, so the buffer holds the trips' stores over the fill. -/

/-- The two columns the body loads after the first walk. -/
private theorem lohi (x0 : Vec F S256x128 .f32) (x1 : Vec F S256x1 .i32) (x2 : Vec F S8192x128 .f32) (x3 : Vec F S1x8192 .i32)
    (v0 : Vec F S256x128 .f32) (hv0 : v0 = x0) (v1 : Vec F S256x1 .i32) (hv1 : v1 = x1) :
    rd arg6 (arg6.view.writes (Elt F) arg6.view.junk ((pb_k0_t1 (F := F) 𝒱 c bd i arg1 harg1 arg2 harg2 arg3 harg3 arg4 harg4 arg5 harg5 arg6 harg6 arg7 harg7 arg8 harg8 arg9 harg9 arg10 harg10 arg11 harg11 v0 v1 (harg3.unread x2) (harg4.unread x3)
            (arg6.view.writes (Elt F) arg6.view.junk [col k0_pay8]) (arg7.view.writes (Elt F) arg7.view.junk [col k0_pay9]) k0_t1_loop.trips).1 ++ [col k0_pay8]))
        = (pass1 x0 x1 x2 x3 k0_t1_loop.trips).1
      ∧ rd arg7 (arg7.view.writes (Elt F) arg7.view.junk ((pb_k0_t1 (F := F) 𝒱 c bd i arg1 harg1 arg2 harg2 arg3 harg3 arg4 harg4 arg5 harg5 arg6 harg6 arg7 harg7 arg8 harg8 arg9 harg9 arg10 harg10 arg11 harg11 v0 v1 (harg3.unread x2) (harg4.unread x3)
            (arg6.view.writes (Elt F) arg6.view.junk [col k0_pay8]) (arg7.view.writes (Elt F) arg7.view.junk [col k0_pay9]) k0_t1_loop.trips).2 ++ [col k0_pay9]))
        = (pass1 x0 x1 x2 x3 k0_t1_loop.trips).2 := by
  subst hv0 hv1
  rw [View.writes_append, View.writes_append]
  exact walk1 𝒱 c bd i arg1 harg1 arg2 harg2 arg3 harg3 arg4 harg4 arg5 harg5 arg6 harg6 arg7 harg7 arg8 harg8 arg9 harg9 arg10 harg10 arg11 harg11 v0 v1 x2 x3 _ _ (rd_writes_col arg6 _ k0_pay8 []) (rd_writes_col arg7 _ k0_pay9 [])
    _ le_rfl

/-- The four columns the body loads after the second walk, run with the columns `lo` and `hi`. -/
private theorem sums (a0 : BitVec 32) (x0 : Vec F S256x128 .f32) (x1 : Vec F S256x1 .i32) (x2 : Vec F S8192x128 .f32)
    (x3 : Vec F S1x8192 .i32) (v0 : Vec F S256x128 .f32) (hv0 : v0 = x0) (v2 : IVec S256x1 32) (hv2 : v2 = k0_pay7 x1)
    (lo hi : Vec F S256x1 .f32) :
    rd arg8 (arg8.view.writes (Elt F) arg8.view.junk ((pb_k0_t2 (F := F) 𝒱 c bd i arg1 harg1 arg2 harg2 arg3 harg3 arg4 harg4 arg5 harg5 arg6 harg6 arg7 harg7 arg8 harg8 arg9 harg9 arg10 harg10 arg11 harg11 a0 v0 v2 lo hi (harg3.unread x2) (harg4.unread x3)
            (arg8.view.writes (Elt F) arg8.view.junk [col k0_pay14]) (arg9.view.writes (Elt F) arg9.view.junk [col k0_pay15])
            (arg10.view.writes (Elt F) arg10.view.junk [col k0_pay16]) (arg11.view.writes (Elt F) arg11.view.junk [col k0_pay17]) k0_t2_loop.trips).1 ++ [col k0_pay14]))
        = (pass2 x0 x1 x2 x3 lo hi k0_t2_loop.trips).1
      ∧ rd arg9 (arg9.view.writes (Elt F) arg9.view.junk ((pb_k0_t2 (F := F) 𝒱 c bd i arg1 harg1 arg2 harg2 arg3 harg3 arg4 harg4 arg5 harg5 arg6 harg6 arg7 harg7 arg8 harg8 arg9 harg9 arg10 harg10 arg11 harg11 a0 v0 v2 lo hi (harg3.unread x2) (harg4.unread x3)
            (arg8.view.writes (Elt F) arg8.view.junk [col k0_pay14]) (arg9.view.writes (Elt F) arg9.view.junk [col k0_pay15])
            (arg10.view.writes (Elt F) arg10.view.junk [col k0_pay16]) (arg11.view.writes (Elt F) arg11.view.junk [col k0_pay17]) k0_t2_loop.trips).2.1 ++ [col k0_pay15]))
        = (pass2 x0 x1 x2 x3 lo hi k0_t2_loop.trips).2.1
      ∧ rd arg10 (arg10.view.writes (Elt F) arg10.view.junk ((pb_k0_t2 (F := F) 𝒱 c bd i arg1 harg1 arg2 harg2 arg3 harg3 arg4 harg4 arg5 harg5 arg6 harg6 arg7 harg7 arg8 harg8 arg9 harg9 arg10 harg10 arg11 harg11 a0 v0 v2 lo hi (harg3.unread x2) (harg4.unread x3)
            (arg8.view.writes (Elt F) arg8.view.junk [col k0_pay14]) (arg9.view.writes (Elt F) arg9.view.junk [col k0_pay15])
            (arg10.view.writes (Elt F) arg10.view.junk [col k0_pay16]) (arg11.view.writes (Elt F) arg11.view.junk [col k0_pay17]) k0_t2_loop.trips).2.2.1 ++ [col k0_pay16]))
        = (pass2 x0 x1 x2 x3 lo hi k0_t2_loop.trips).2.2.1
      ∧ rd arg11 (arg11.view.writes (Elt F) arg11.view.junk ((pb_k0_t2 (F := F) 𝒱 c bd i arg1 harg1 arg2 harg2 arg3 harg3 arg4 harg4 arg5 harg5 arg6 harg6 arg7 harg7 arg8 harg8 arg9 harg9 arg10 harg10 arg11 harg11 a0 v0 v2 lo hi (harg3.unread x2) (harg4.unread x3)
            (arg8.view.writes (Elt F) arg8.view.junk [col k0_pay14]) (arg9.view.writes (Elt F) arg9.view.junk [col k0_pay15])
            (arg10.view.writes (Elt F) arg10.view.junk [col k0_pay16]) (arg11.view.writes (Elt F) arg11.view.junk [col k0_pay17]) k0_t2_loop.trips).2.2.2 ++ [col k0_pay17]))
        = (pass2 x0 x1 x2 x3 lo hi k0_t2_loop.trips).2.2.2 := by
  subst hv0 hv2
  rw [View.writes_append, View.writes_append, View.writes_append, View.writes_append]
  exact walk2 𝒱 c bd i arg1 harg1 arg2 harg2 arg3 harg3 arg4 harg4 arg5 harg5 arg6 harg6 arg7 harg7 arg8 harg8 arg9 harg9 arg10 harg10 arg11 harg11 a0 v0 x1 x2 x3 lo hi _ _ _ _ (rd_writes_col arg8 _ k0_pay14 [])
    (rd_writes_col arg9 _ k0_pay15 []) (rd_writes_col arg10 _ k0_pay16 []) (rd_writes_col arg11 _ k0_pay17 [])
    _ le_rfl

end Walks

/-- At the first grid point the body zeroes the output cell and then adds the tile's number: the cell ends at
    the tile's term over the zero cell. -/
theorem caseA (c : Dev nD) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S1x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : cond0_0 i)
    (x0 : Vec F S256x128 .f32) (x1 : Vec F S256x1 .i32) (x2 : Vec F S8192x128 .f32) (x3 : Vec F S1x8192 .i32) :
    out0_A_4 c i arg1 harg1 arg2 harg2 arg3 harg3 arg4 harg4 arg5 harg5 arg6 harg6 arg7 harg7 arg8 harg8 arg9 harg9 arg10 harg10 arg11 harg11 hc0 x0 x1 x2 x3 = tileOut x0 x1 x2 x3 k0_pay22 := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 arg11 harg11 hc0 x0 x1 x2 x3)]
  unfold kernelRun0_A
  dsimp only
  rw [View.canon_cons_unit_zero hz2]
  have hr : kernelRun0_A.sl.r (F := F) c arg1 harg1 x0 = x0 :=
    readAt_unread_whole arg1 harg1 hz2 inb_S256x128_S256x128_0_0 x0
  have hr1 : kernelRun0_A.sl.r_1 (F := F) c arg2 harg2 x1 = k0_pay7 x1 :=
    congrArg k0_pay7 (readAt_unread_whole arg2 harg2 hz2 inb_S256x1_S256x1_0_0 x1)
  have hlh := lohi (F := F) Variants.none c none i arg1 harg1 arg2 harg2 arg3 harg3 arg4 harg4 arg5 harg5 arg6 harg6 arg7 harg7 arg8 harg8 arg9 harg9 arg10 harg10 arg11 harg11 x0 x1 x2 x3
    _ (readAt_unread_whole arg1 harg1 hz2 inb_S256x128_S256x128_0_0 x0)
    _ (readAt_unread_whole arg2 harg2 hz2 inb_S256x1_S256x1_0_0 x1)
  have h12 : kernelRun0_A.sl.v12 c i arg1 harg1 arg2 harg2 arg3 harg3 arg4 harg4 arg5 harg5 arg6 harg6 arg7 harg7 arg8 harg8 arg9 harg9 arg10 harg10 arg11 harg11 x0 x1 x2 x3 = (pass1 x0 x1 x2 x3 k0_t1_loop.trips).1 := hlh.1
  have h13 : kernelRun0_A.sl.v13 c i arg1 harg1 arg2 harg2 arg3 harg3 arg4 harg4 arg5 harg5 arg6 harg6 arg7 harg7 arg8 harg8 arg9 harg9 arg10 harg10 arg11 harg11 x0 x1 x2 x3 = (pass1 x0 x1 x2 x3 k0_t1_loop.trips).2 := hlh.2
  have hs := fun a0 => sums (F := F) Variants.none c none i arg1 harg1 arg2 harg2 arg3 harg3 arg4 harg4 arg5 harg5 arg6 harg6 arg7 harg7 arg8 harg8 arg9 harg9 arg10 harg10 arg11 harg11 a0 x0 x1 x2 x3
    _ hr _ hr1 (kernelRun0_A.sl.v12 c i arg1 harg1 arg2 harg2 arg3 harg3 arg4 harg4 arg5 harg5 arg6 harg6 arg7 harg7 arg8 harg8 arg9 harg9 arg10 harg10 arg11 harg11 x0 x1 x2 x3) (kernelRun0_A.sl.v13 c i arg1 harg1 arg2 harg2 arg3 harg3 arg4 harg4 arg5 harg5 arg6 harg6 arg7 harg7 arg8 harg8 arg9 harg9 arg10 harg10 arg11 harg11 x0 x1 x2 x3)
  have h31 : kernelRun0_A.sl.v31 c i arg1 harg1 arg2 harg2 arg3 harg3 arg4 harg4 arg5 harg5 arg6 harg6 arg7 harg7 arg8 harg8 arg9 harg9 arg10 harg10 arg11 harg11 x0 x1 x2 x3 = (pass2 x0 x1 x2 x3 (kernelRun0_A.sl.v12 c i arg1 harg1 arg2 harg2 arg3 harg3 arg4 harg4 arg5 harg5 arg6 harg6 arg7 harg7 arg8 harg8 arg9 harg9 arg10 harg10 arg11 harg11 x0 x1 x2 x3) (kernelRun0_A.sl.v13 c i arg1 harg1 arg2 harg2 arg3 harg3 arg4 harg4 arg5 harg5 arg6 harg6 arg7 harg7 arg8 harg8 arg9 harg9 arg10 harg10 arg11 harg11 x0 x1 x2 x3) k0_t2_loop.trips).1 := (hs _).1
  have h32 : kernelRun0_A.sl.v32 c i arg1 harg1 arg2 harg2 arg3 harg3 arg4 harg4 arg5 harg5 arg6 harg6 arg7 harg7 arg8 harg8 arg9 harg9 arg10 harg10 arg11 harg11 x0 x1 x2 x3 = (pass2 x0 x1 x2 x3 (kernelRun0_A.sl.v12 c i arg1 harg1 arg2 harg2 arg3 harg3 arg4 harg4 arg5 harg5 arg6 harg6 arg7 harg7 arg8 harg8 arg9 harg9 arg10 harg10 arg11 harg11 x0 x1 x2 x3) (kernelRun0_A.sl.v13 c i arg1 harg1 arg2 harg2 arg3 harg3 arg4 harg4 arg5 harg5 arg6 harg6 arg7 harg7 arg8 harg8 arg9 harg9 arg10 harg10 arg11 harg11 x0 x1 x2 x3) k0_t2_loop.trips).2.1 := (hs _).2.1
  have h33 : kernelRun0_A.sl.v33 c i arg1 harg1 arg2 harg2 arg3 harg3 arg4 harg4 arg5 harg5 arg6 harg6 arg7 harg7 arg8 harg8 arg9 harg9 arg10 harg10 arg11 harg11 x0 x1 x2 x3 = (pass2 x0 x1 x2 x3 (kernelRun0_A.sl.v12 c i arg1 harg1 arg2 harg2 arg3 harg3 arg4 harg4 arg5 harg5 arg6 harg6 arg7 harg7 arg8 harg8 arg9 harg9 arg10 harg10 arg11 harg11 x0 x1 x2 x3) (kernelRun0_A.sl.v13 c i arg1 harg1 arg2 harg2 arg3 harg3 arg4 harg4 arg5 harg5 arg6 harg6 arg7 harg7 arg8 harg8 arg9 harg9 arg10 harg10 arg11 harg11 x0 x1 x2 x3) k0_t2_loop.trips).2.2.1 := (hs _).2.2.1
  have h36 : kernelRun0_A.sl.v36 c i arg1 harg1 arg2 harg2 arg3 harg3 arg4 harg4 arg5 harg5 arg6 harg6 arg7 harg7 arg8 harg8 arg9 harg9 arg10 harg10 arg11 harg11 x0 x1 x2 x3 = (pass2 x0 x1 x2 x3 (kernelRun0_A.sl.v12 c i arg1 harg1 arg2 harg2 arg3 harg3 arg4 harg4 arg5 harg5 arg6 harg6 arg7 harg7 arg8 harg8 arg9 harg9 arg10 harg10 arg11 harg11 x0 x1 x2 x3) (kernelRun0_A.sl.v13 c i arg1 harg1 arg2 harg2 arg3 harg3 arg4 harg4 arg5 harg5 arg6 harg6 arg7 harg7 arg8 harg8 arg9 harg9 arg10 harg10 arg11 harg11 x0 x1 x2 x3) k0_t2_loop.trips).2.2.2 := (hs _).2.2.2
  have h54 : kernelRun0_A.sl.v54 (F := F) c arg5 = k0_pay22 :=
    View.readCov_unit_zero (Val := Elt F) arg5.view hz2 inb_S1x1_S1x1_0_0 (k0_pay22 (F := F))
  unfold kernelRun0_A.sl.r_2
  rw [h31, h32, h33, h36, h54, h12, h13]
  rfl

/-- At a later grid point the body adds the tile's number to what the cell held. -/
theorem caseB (c : Dev nD) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S1x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i)
    (x0 : Vec F S256x128 .f32) (x1 : Vec F S256x1 .i32) (x2 : Vec F S8192x128 .f32) (x3 : Vec F S1x8192 .i32)
    (xo4 : Vec F S1x1 .f32) :
    out0_B_4 c i arg1 harg1 arg2 harg2 arg3 harg3 arg4 harg4 arg5 harg5 arg6 harg6 arg7 harg7 arg8 harg8 arg9 harg9 arg10 harg10 arg11 harg11 hc0 x0 x1 x2 x3 xo4 = tileOut x0 x1 x2 x3 xo4 := by
  unfold out0_B_4
  rw [View.read_writes_eq_canon _ _ _ (cover0_B_4 c i arg1 harg1 arg2 harg2 arg3 harg3 arg4 harg4 arg5 harg5 arg6 harg6 arg7 harg7 arg8 harg8 arg9 harg9 arg10 harg10 arg11 harg11 hc0 x0 x1 x2 x3 xo4)]
  unfold kernelRun0_B
  dsimp only
  rw [View.canon_cons_unit_zero hz2]
  have hr : kernelRun0_B.sl.r (F := F) c arg1 harg1 x0 = x0 :=
    readAt_unread_whole arg1 harg1 hz2 inb_S256x128_S256x128_0_0 x0
  have hr1 : kernelRun0_B.sl.r_1 (F := F) c arg2 harg2 x1 = k0_pay7 x1 :=
    congrArg k0_pay7 (readAt_unread_whole arg2 harg2 hz2 inb_S256x1_S256x1_0_0 x1)
  have hlh := lohi (F := F) Variants.none c none i arg1 harg1 arg2 harg2 arg3 harg3 arg4 harg4 arg5 harg5 arg6 harg6 arg7 harg7 arg8 harg8 arg9 harg9 arg10 harg10 arg11 harg11 x0 x1 x2 x3
    _ (readAt_unread_whole arg1 harg1 hz2 inb_S256x128_S256x128_0_0 x0)
    _ (readAt_unread_whole arg2 harg2 hz2 inb_S256x1_S256x1_0_0 x1)
  have h12 : kernelRun0_B.sl.v12 c i arg1 harg1 arg2 harg2 arg3 harg3 arg4 harg4 arg5 harg5 arg6 harg6 arg7 harg7 arg8 harg8 arg9 harg9 arg10 harg10 arg11 harg11 x0 x1 x2 x3 = (pass1 x0 x1 x2 x3 k0_t1_loop.trips).1 := hlh.1
  have h13 : kernelRun0_B.sl.v13 c i arg1 harg1 arg2 harg2 arg3 harg3 arg4 harg4 arg5 harg5 arg6 harg6 arg7 harg7 arg8 harg8 arg9 harg9 arg10 harg10 arg11 harg11 x0 x1 x2 x3 = (pass1 x0 x1 x2 x3 k0_t1_loop.trips).2 := hlh.2
  have hs := fun a0 => sums (F := F) Variants.none c none i arg1 harg1 arg2 harg2 arg3 harg3 arg4 harg4 arg5 harg5 arg6 harg6 arg7 harg7 arg8 harg8 arg9 harg9 arg10 harg10 arg11 harg11 a0 x0 x1 x2 x3
    _ hr _ hr1 (kernelRun0_B.sl.v12 c i arg1 harg1 arg2 harg2 arg3 harg3 arg4 harg4 arg5 harg5 arg6 harg6 arg7 harg7 arg8 harg8 arg9 harg9 arg10 harg10 arg11 harg11 x0 x1 x2 x3) (kernelRun0_B.sl.v13 c i arg1 harg1 arg2 harg2 arg3 harg3 arg4 harg4 arg5 harg5 arg6 harg6 arg7 harg7 arg8 harg8 arg9 harg9 arg10 harg10 arg11 harg11 x0 x1 x2 x3)
  have h31 : kernelRun0_B.sl.v31 c i arg1 harg1 arg2 harg2 arg3 harg3 arg4 harg4 arg5 harg5 arg6 harg6 arg7 harg7 arg8 harg8 arg9 harg9 arg10 harg10 arg11 harg11 x0 x1 x2 x3 = (pass2 x0 x1 x2 x3 (kernelRun0_B.sl.v12 c i arg1 harg1 arg2 harg2 arg3 harg3 arg4 harg4 arg5 harg5 arg6 harg6 arg7 harg7 arg8 harg8 arg9 harg9 arg10 harg10 arg11 harg11 x0 x1 x2 x3) (kernelRun0_B.sl.v13 c i arg1 harg1 arg2 harg2 arg3 harg3 arg4 harg4 arg5 harg5 arg6 harg6 arg7 harg7 arg8 harg8 arg9 harg9 arg10 harg10 arg11 harg11 x0 x1 x2 x3) k0_t2_loop.trips).1 := (hs _).1
  have h32 : kernelRun0_B.sl.v32 c i arg1 harg1 arg2 harg2 arg3 harg3 arg4 harg4 arg5 harg5 arg6 harg6 arg7 harg7 arg8 harg8 arg9 harg9 arg10 harg10 arg11 harg11 x0 x1 x2 x3 = (pass2 x0 x1 x2 x3 (kernelRun0_B.sl.v12 c i arg1 harg1 arg2 harg2 arg3 harg3 arg4 harg4 arg5 harg5 arg6 harg6 arg7 harg7 arg8 harg8 arg9 harg9 arg10 harg10 arg11 harg11 x0 x1 x2 x3) (kernelRun0_B.sl.v13 c i arg1 harg1 arg2 harg2 arg3 harg3 arg4 harg4 arg5 harg5 arg6 harg6 arg7 harg7 arg8 harg8 arg9 harg9 arg10 harg10 arg11 harg11 x0 x1 x2 x3) k0_t2_loop.trips).2.1 := (hs _).2.1
  have h33 : kernelRun0_B.sl.v33 c i arg1 harg1 arg2 harg2 arg3 harg3 arg4 harg4 arg5 harg5 arg6 harg6 arg7 harg7 arg8 harg8 arg9 harg9 arg10 harg10 arg11 harg11 x0 x1 x2 x3 = (pass2 x0 x1 x2 x3 (kernelRun0_B.sl.v12 c i arg1 harg1 arg2 harg2 arg3 harg3 arg4 harg4 arg5 harg5 arg6 harg6 arg7 harg7 arg8 harg8 arg9 harg9 arg10 harg10 arg11 harg11 x0 x1 x2 x3) (kernelRun0_B.sl.v13 c i arg1 harg1 arg2 harg2 arg3 harg3 arg4 harg4 arg5 harg5 arg6 harg6 arg7 harg7 arg8 harg8 arg9 harg9 arg10 harg10 arg11 harg11 x0 x1 x2 x3) k0_t2_loop.trips).2.2.1 := (hs _).2.2.1
  have h36 : kernelRun0_B.sl.v36 c i arg1 harg1 arg2 harg2 arg3 harg3 arg4 harg4 arg5 harg5 arg6 harg6 arg7 harg7 arg8 harg8 arg9 harg9 arg10 harg10 arg11 harg11 x0 x1 x2 x3 = (pass2 x0 x1 x2 x3 (kernelRun0_B.sl.v12 c i arg1 harg1 arg2 harg2 arg3 harg3 arg4 harg4 arg5 harg5 arg6 harg6 arg7 harg7 arg8 harg8 arg9 harg9 arg10 harg10 arg11 harg11 x0 x1 x2 x3) (kernelRun0_B.sl.v13 c i arg1 harg1 arg2 harg2 arg3 harg3 arg4 harg4 arg5 harg5 arg6 harg6 arg7 harg7 arg8 harg8 arg9 harg9 arg10 harg10 arg11 harg11 x0 x1 x2 x3) k0_t2_loop.trips).2.2.2 := (hs _).2.2.2
  have h54 := readAt_unread_whole (F := F) arg5 harg5 hz2 inb_S1x1_S1x1_0_0 xo4
  unfold kernelRun0_B.sl.r_2
  rw [h31, h32, h33, h36, h54, h12, h13]
  rfl

end Cert.KernelIdeal.Passes

end
-- ==== Proof.Spec.lean ====
/-
  The multi-similarity loss as ONE function of its four arrays, on the extended reals.

  For a row `b` of the first embedding matrix and a row `n` of the second, `sim b n` is their inner product.
  A pair is POSITIVE when the two labels agree and the similarity is below the threshold just under one, NEGATIVE
  when the labels differ. Each row keeps its hardest examples: `minPos b` is the least similarity over the positive
  pairs of the row (`+∞` when there is none) and `maxNeg b` the greatest over its negative pairs (`-∞` when there is
  none); a negative pair is MINED when its similarity plus the margin exceeds `minPos b`, a positive one when its
  similarity minus the margin is below `maxNeg b`. Over the mined pairs of the row the two exponential sums are taken,
  an unmined pair contributing zero; a row with a mined pair of each kind contributes
  `log(1 + posSum) / 2 + log(1 + negSum) / 40`, any other row zero; the loss is the sum over the rows divided by the
  number of rows.

  A mask is the one-bit word the comparison gives, combined by the words' own `and` and `xor`, so that both programs'
  masks are these terms letter by letter; the float literals stay the words both programs print.
-/
import Idealize.ShloMosaic.PureOps.Ideal
import Idealize.ShloMosaic.PureOps.Ideal.Laws
import Idealize.ShloMosaic.Lib.ValueIdx

noncomputable section

open scoped BigOperators

namespace Cert.Proof.Msl

open Idealize.ShloMosaic Idealize.ShloMosaic.ValueIdx

/-! ## The literals, as the words both programs print -/

/-- The threshold just under one below which an equal-label pair counts as positive. -/
abbrev cOne : EReal := Ideal.ofBits .f32 0x3F7FFF58#32
/-- The mining margin. -/
abbrev cMargin : EReal := Ideal.ofBits .f32 0x3DCCCCCD#32
/-- The similarity offset inside both exponents. -/
abbrev cHalf : EReal := Ideal.ofBits .f32 0x3F000000#32
/-- The positive pairs' exponent scale, minus two. -/
abbrev cNegTwo : EReal := Ideal.ofBits .f32 0xC0000000#32
/-- The negative pairs' exponent scale, forty; also the divisor of their logarithm. -/
abbrev cForty : EReal := Ideal.ofBits .f32 0x42200000#32
/-- The divisor of the positive pairs' logarithm. -/
abbrev cTwo : EReal := Ideal.ofBits .f32 0x40000000#32
abbrev cInf : EReal := Ideal.ofBits .f32 0x7F800000#32
abbrev cNegInf : EReal := Ideal.ofBits .f32 0xFF800000#32
abbrev cZero : EReal := Ideal.ofBits .f32 0x00000000#32
/-- The number of rows, the final divisor. -/
abbrev cRows : EReal := Ideal.ofBits .f32 0x46000000#32

theorem cZero_eq : cZero = 0 := Ideal.ofBits_zero_f32

/-- A one-bit mask as the number 0 or 1: the word widened to 32 bits and converted. -/
def ind (m : BitVec 1) : EReal := FloatOps.sitofp (F := Ideal) .f32 (m.setWidth 32)

section Loss

/-! A row's quantities depend on the first matrix only through that row's vector `u` and its label `l`; the second
    matrix `row` and its labels `tr` enter whole. -/

variable (u : Fin 128 → EReal) (l : BitVec 32) (row : Fin 8192 → Fin 128 → EReal) (tr : Fin 8192 → BitVec 32)

/-- The inner product of the row's vector with row `n` of the second matrix. -/
def sim (n : Fin 8192) : EReal := ∑ d : Fin 128, u d * row n d

/-- The two labels agree. -/
def same (n : Fin 8192) : BitVec 1 := IntOp.cmpi .eq (tr n) l

/-- A positive pair: equal labels and a similarity below the threshold. -/
def pos (n : Fin 8192) : BitVec 1 := IntOp.andi (same l tr n) (Ideal.cmp .olt (sim u row n) cOne)

/-- A negative pair: different labels. -/
def neg (n : Fin 8192) : BitVec 1 := IntOp.xori (same l tr n) 1#1

/-- The value where the mask holds, the given filler elsewhere. -/
def masked (m : BitVec 1) (x fill : EReal) : EReal := Scalar.select m x fill

/-- The least similarity over the row's positive pairs (`+∞` when it has none). -/
def minPos : EReal :=
  (Finset.univ : Finset (Fin 8192)).fold min cInf fun n => masked (pos u l row tr n) (sim u row n) cInf

/-- The greatest similarity over the row's negative pairs (`-∞` when it has none). -/
def maxNeg : EReal :=
  (Finset.univ : Finset (Fin 8192)).fold max cNegInf fun n => masked (neg l tr n) (sim u row n) cNegInf

/-- A mined negative pair: its similarity plus the margin exceeds the least positive one. -/
def negM (n : Fin 8192) : BitVec 1 :=
  IntOp.andi (neg l tr n) (Ideal.cmp .ogt (sim u row n + cMargin) (minPos u l row tr))

/-- A mined positive pair: its similarity minus the margin is below the greatest negative one. -/
def posM (n : Fin 8192) : BitVec 1 :=
  IntOp.andi (pos u l row tr n) (Ideal.cmp .olt (sim u row n - cMargin) (maxNeg u l row tr))

/-- A mined positive pair's term `exp(-2 (s - 1/2))`, zero off the mask. -/
def posExp (n : Fin 8192) : EReal :=
  masked (posM u l row tr n) (Ideal.exp (cNegTwo * (sim u row n - cHalf))) cZero

/-- A mined negative pair's term `exp(40 (s - 1/2))`, zero off the mask. -/
def negExp (n : Fin 8192) : EReal :=
  masked (negM u l row tr n) (Ideal.exp (cForty * (sim u row n - cHalf))) cZero

def posSum : EReal := ∑ n : Fin 8192, posExp u l row tr n
def negSum : EReal := ∑ n : Fin 8192, negExp u l row tr n
/-- How many positive pairs of the row are mined, as a number. -/
def posCnt : EReal := ∑ n : Fin 8192, ind (posM u l row tr n)
/-- How many negative pairs of the row are mined, as a number. -/
def negCnt : EReal := ∑ n : Fin 8192, ind (negM u l row tr n)

/-- The row has a mined pair of each kind. -/
def valid : BitVec 1 :=
  IntOp.andi (Ideal.cmp .ogt (posCnt u l row tr) cZero) (Ideal.cmp .ogt (negCnt u l row tr) cZero)

/-- The row's contribution: `log(1 + posSum) / 2 + log(1 + negSum) / 40` when valid, else zero. -/
def rowLoss : EReal :=
  masked (valid u l row tr)
    (Ideal.div (Ideal.log1p (posSum u l row tr)) cTwo + Ideal.div (Ideal.log1p (negSum u l row tr)) cForty) cZero

end Loss

/-- The loss: the rows' contributions summed, over the number of rows. -/
def loss (col : Fin 8192 → Fin 128 → EReal) (tc : Fin 8192 → BitVec 32)
    (row : Fin 8192 → Fin 128 → EReal) (tr : Fin 8192 → BitVec 32) : EReal :=
  Ideal.div (∑ b : Fin 8192, rowLoss (col b) (tc b) row tr) cRows

/-- The loss read off the four argument arrays as the programs hold them: the two embedding matrices as
    `[8192, 128]` arrays, the two label vectors as `[8192]` arrays of 32-bit words. -/
def lossOf (a0 : FVec Ideal ⟨2, ![8192, 128]⟩ .f32) (a1 : IVec ⟨1, ![8192]⟩ 32)
    (a2 : FVec Ideal ⟨2, ![8192, 128]⟩ .f32) (a3 : IVec ⟨1, ![8192]⟩ 32) : EReal :=
  loss (fun b d => a0 (ix2 b d)) (fun b => a1 (ix1 b)) (fun n d => a2 (ix2 n d)) (fun n => a3 (ix1 n))

/-! ## Columns by chunks, rows by tiles -/

/-- Column `q` of chunk `k`: the row's 8192 columns are 8 chunks of 1024. -/
def chunkCol (k : Fin 8) (q : Fin 1024) : Fin 8192 := ⟨1024 * k.val + q.val, by have := k.isLt; have := q.isLt; omega⟩

/-- Row `p` of tile `t`: the 8192 rows are 32 tiles of 256. -/
def tileRow (t : Fin 32) (p : Fin 256) : Fin 8192 := ⟨256 * t.val + p.val, by have := t.isLt; have := p.isLt; omega⟩

/-- (chunk, column in the chunk) ↔ column. -/
def chunkEquiv : Fin 8 × Fin 1024 ≃ Fin 8192 where
  toFun x := chunkCol x.1 x.2
  invFun n := (⟨n.val / 1024, by have := n.isLt; omega⟩, ⟨n.val % 1024, Nat.mod_lt _ (by decide)⟩)
  left_inv x := by
    obtain ⟨k, q⟩ := x
    have hk := k.isLt; have hq := q.isLt
    refine Prod.ext (Fin.ext ?_) (Fin.ext ?_)
    · show (1024 * k.val + q.val) / 1024 = k.val; omega
    · show (1024 * k.val + q.val) % 1024 = q.val; omega
  right_inv n := by
    refine Fin.ext ?_
    show 1024 * (n.val / 1024) + n.val % 1024 = n.val; omega

/-- (tile, row in the tile) ↔ row. -/
def tileEquiv : Fin 32 × Fin 256 ≃ Fin 8192 where
  toFun x := tileRow x.1 x.2
  invFun b := (⟨b.val / 256, by have := b.isLt; omega⟩, ⟨b.val % 256, Nat.mod_lt _ (by decide)⟩)
  left_inv x := by
    obtain ⟨t, p⟩ := x
    have ht := t.isLt; have hp := p.isLt
    refine Prod.ext (Fin.ext ?_) (Fin.ext ?_)
    · show (256 * t.val + p.val) / 256 = t.val; omega
    · show (256 * t.val + p.val) % 256 = p.val; omega
  right_inv b := by
    refine Fin.ext ?_
    show 256 * (b.val / 256) + b.val % 256 = b.val; omega

/-- A sum over the columns is the sum over the chunks of the sums inside each. -/
theorem sum_chunks {M : Type*} [AddCommMonoid M] (f : Fin 8192 → M) :
    ∑ n : Fin 8192, f n = ∑ k : Fin 8, ∑ q : Fin 1024, f (chunkCol k q) := by
  rw [← chunkEquiv.sum_comp f, Fintype.sum_prod_type]; rfl

/-- A sum over the rows is the sum over the tiles of the sums inside each. -/
theorem sum_tiles {M : Type*} [AddCommMonoid M] (f : Fin 8192 → M) :
    ∑ b : Fin 8192, f b = ∑ t : Fin 32, ∑ p : Fin 256, f (tileRow t p) := by
  rw [← tileEquiv.sum_comp f, Fintype.sum_prod_type]; rfl

end Cert.Proof.Msl

end
-- ==== Proof.Pass1Math.lean ====
/-
  The first walk over the second matrix, on the extended reals: after all its trips the running minimum column
  holds, at each row of the tile, the least similarity over that row's positive pairs among ALL 8192 columns, and the
  running maximum column the greatest over its negative pairs — a minimum (a maximum) taken chunk by chunk from
  `+∞` (`-∞`) is the minimum (maximum) over all the columns.
-/
import proofs.«147075_j1769526526575_1_alg».proof.Proof.Passes
import proofs.«147075_j1769526526575_1_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.Pass1Math

open Cert.KernelIdeal Cert.KernelIdeal.Gen Idealize.ShloMosaic Idealize.ShloMosaic.ValueIdx

section Readings

open Cert.KernelIdeal.Passes Cert.Proof

/-! ## The trips, and the chunk each one loads -/

/-- The first walk makes eight trips. -/
theorem trips_eq : k0_t1_loop.trips = 8 := rfl

/-- Trip `k` loads rows `1024 k …` of the second matrix: at `(q, d)` it holds the matrix at row `chunkCol k q`. -/
theorem rows1_apply (x2 : Vec Ideal S8192x128 .f32) (k : Fin k0_t1_loop.trips) (q : Fin 1024) (d : Fin 128) :
    rows1 (F := Ideal) x2 k (ix2 q d) = x2 (ix2 (Msl.chunkCol ⟨k.val, k.isLt⟩ q) d) := by
  show x2 _ = x2 _
  refine congrArg x2 (Shape.idx_ext₂ ?_ ?_)
  · show (k0_off1 k) 0 + 1 * q.val = 1024 * k.val + q.val
    rw [k0_off1_eq k]; show 1024 * k.val + 1 * q.val = _; omega
  · show (k0_off1 k) 1 + 1 * d.val = d.val
    rw [k0_off1_eq k]; show 0 + 1 * d.val = _; omega

/-- … and their labels: at `(0, q)` the label of row `chunkCol k q`. -/
theorem lbls1_apply (x3 : Vec Ideal S1x8192 .i32) (k : Fin k0_t1_loop.trips) (q : Fin 1024) :
    lbls1 (F := Ideal) x3 k (ix2 (0 : Fin 1) q) = x3 (ix2 (0 : Fin 1) (Msl.chunkCol ⟨k.val, k.isLt⟩ q)) := by
  show x3 _ = x3 _
  refine congrArg x3 (Shape.idx_ext₂ ?_ ?_)
  · show (k0_off2 k) 0 + 1 * 0 = 0
    rw [k0_off2_eq k]; rfl
  · show (k0_off2 k) 1 + 1 * q.val = 1024 * k.val + q.val
    rw [k0_off2_eq k]; show 1024 * k.val + 1 * q.val = _; omega

/-! ## The similarities of a tile against a chunk -/

/-- The product's dimension numbers: both operands contract their second axis. -/
abbrev simDot := dot_S256x128_S1024x128_S256x1024_1_1_0_0_n_n

/-- The left operand is read at the output's row … -/
theorem simDot_lhs0 (i : S256x1024.Idx) (c : simDot.contr.Idx) : (simDot.lhsIdx i c 0).val = (i 0).val := by
  unfold DotDims.lhsIdx
  rw [dif_neg (show ¬(0 : Fin S256x128.rank) ∈ simDot.lhsBatch by decide),
    dif_pos (show (0 : Fin S256x128.rank) ∈ simDot.lhsNonContracting by decide)]
  rfl
/-- … and the contraction coordinate; -/
theorem simDot_lhs1 (i : S256x1024.Idx) (c : simDot.contr.Idx) : (simDot.lhsIdx i c 1).val = (c ⟨0, by decide⟩).val :=
  simDot.lhsIdx_val_of_single rfl i c
/-- the right operand at the output's column … -/
theorem simDot_rhs0 (i : S256x1024.Idx) (c : simDot.contr.Idx) : (simDot.rhsIdx i c 0).val = (i 1).val := by
  unfold DotDims.rhsIdx
  rw [dif_neg (show ¬(0 : Fin S1024x128.rank) ∈ simDot.rhsBatch by decide),
    dif_pos (show (0 : Fin S1024x128.rank) ∈ simDot.rhsNonContracting by decide)]
  rfl
/-- … and the contraction coordinate. -/
theorem simDot_rhs1 (i : S256x1024.Idx) (c : simDot.contr.Idx) : (simDot.rhsIdx i c 1).val = (c ⟨0, by decide⟩).val :=
  simDot.rhsIdx_val_of_single rfl i c

/-- The product at `(p, q)` is the inner product of row `p` of the tile with row `q` of the chunk. -/
theorem sim_apply (x0 : Vec Ideal S256x128 .f32) (v : Vec Ideal S1024x128 .f32) (p : Fin 256) (q : Fin 1024) :
    k0_pay10 (F := Ideal) x0 v (ix2 p q) = ∑ d : Fin 128, x0 (ix2 p d) * v (ix2 q d) := by
  unfold k0_pay10
  simp only [matmul]
  rw [Ideal.matmul_constant_zero_apply, ← Equiv.sum_comp (contrEquiv1 simDot 128 rfl rfl).symm]
  refine Finset.sum_congr rfl fun d _ => ?_
  have hd := contrEquiv1_symm_val simDot 128 rfl rfl d
  have el : simDot.lhsIdx (ix2 p q) ((contrEquiv1 simDot 128 rfl rfl).symm d) = ix2 p d :=
    Shape.idx_ext₂ (simDot_lhs0 _ _) ((simDot_lhs1 _ _).trans hd)
  have er : simDot.rhsIdx (ix2 p q) ((contrEquiv1 simDot 128 rfl rfl).symm d) = ix2 q d :=
    Shape.idx_ext₂ (simDot_rhs0 _ _) ((simDot_rhs1 _ _).trans hd)
  rw [el, er]

/-! ## Columns: a vector as a column, a column across a matrix, and a row's minimum -/

/-- An `[a]` vector cast to the column `[a, 1]` reads, at `(i, 0)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `(i, 0)`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- On the extended reals a minimum reduction over ONE axis is, at each reduced index, the fold of `min` from the
    accumulator's value over that axis's coordinates: a minimum commutes and associates, so the order is immaterial. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row `p` with column `q` put back on the reduced axis is the index `(p, q)`. -/
theorem lift_row (p : Fin 256) (q : Fin 1024) : reduces_S256x1024_S256.lift (ix1 p) q = ix2 p q :=
  Shape.idx_ext₂ rfl rfl

/-! ## One trip's two columns, read at a row -/

/-- The label mask at `(p, q)`: the chunk's label `q` equals the tile's label `p`. -/
theorem same_apply (x1 : Vec Ideal S256x1 .i32) (v : Vec Ideal S1x1024 .i32) (p : Fin 256) (q : Fin 1024) :
    k0_pay11 (F := Ideal) x1 v (ix2 p q) = IntOp.cmpi .eq (v (ix2 (0 : Fin 1) q)) (x1 (ix2 p (0 : Fin 1))) := by
  unfold k0_pay11 k0_pay7
  simp only [shapeCast_self]
  show IntOp.cmpi .eq (broadcastTo S256x1024 v broadcasts_S1x1024_S256x1024 (ix2 p q))
    (broadcastTo S256x1024 x1 broadcasts_S256x1_S256x1024 (ix2 p q)) = _
  rw [broadcastTo_1b_ab_apply, broadcastTo_a1_ab_apply]

/-- The new minimum column at row `p`: the old one against the least similarity over the chunk's positive pairs. -/
theorem pay12_apply (x0 : Vec Ideal S256x128 .f32) (x1 : Vec Ideal S256x1 .i32) (v63 : Vec Ideal S1024x128 .f32)
    (v65 : Vec Ideal S1x1024 .i32) (v83 : Vec Ideal S256x1 .f32) (p : Fin 256) :
    k0_pay12 (F := Ideal) x0 x1 v63 v65 v83 (ix2 p (0 : Fin 1))
      = min (v83 (ix2 p (0 : Fin 1))) ((Finset.univ : Finset (Fin 1024)).fold min Msl.cInf fun q =>
          Msl.masked (IntOp.andi (k0_pay11 (F := Ideal) x1 v65 (ix2 p q))
              (Ideal.cmp .olt (k0_pay10 (F := Ideal) x0 v63 (ix2 p q)) Msl.cOne))
            (k0_pay10 (F := Ideal) x0 v63 (ix2 p q)) Msl.cInf) := by
  unfold k0_pay12
  generalize k0_pay10 (F := Ideal) x0 v63 = S
  generalize k0_pay11 (F := Ideal) x1 v65 = M
  simp only [shapeCast_self]
  refine (minimumf_apply _ _ _).trans (congrArg (min (v83 (ix2 p (0 : Fin 1)))) ?_)
  refine (shapeCast_a_a1_apply _ shapeCasts_S256_S256x1 p 0).trans ?_
  refine (multiReduction_minimumf_single _ _ reduces_S256x1024_S256 _ _ (ix1 p)).trans ?_
  refine Finset.fold_congr fun q _ => ?_
  show select _ S _ (reduces_S256x1024_S256.lift (ix1 p) q) = _
  rw [lift_row p q]
  rfl

/-- The new maximum column at row `p`: the old one against the greatest similarity over the chunk's negative pairs. -/
theorem pay13_apply (x0 : Vec Ideal S256x128 .f32) (x1 : Vec Ideal S256x1 .i32) (v63 : Vec Ideal S1024x128 .f32)
    (v65 : Vec Ideal S1x1024 .i32) (v88 : Vec Ideal S256x1 .f32) (p : Fin 256) :
    k0_pay13 (F := Ideal) x0 x1 v63 v65 v88 (ix2 p (0 : Fin 1))
      = max (v88 (ix2 p (0 : Fin 1))) ((Finset.univ : Finset (Fin 1024)).fold max Msl.cNegInf fun q =>
          Msl.masked (IntOp.xori (k0_pay11 (F := Ideal) x1 v65 (ix2 p q)) 1#1)
            (k0_pay10 (F := Ideal) x0 v63 (ix2 p q)) Msl.cNegInf) := by
  unfold k0_pay13
  generalize k0_pay10 (F := Ideal) x0 v63 = S
  generalize k0_pay11 (F := Ideal) x1 v65 = M
  simp only [shapeCast_self]
  refine (maximumf_apply _ _ _).trans (congrArg (max (v88 (ix2 p (0 : Fin 1)))) ?_)
  refine (shapeCast_a_a1_apply _ shapeCasts_S256_S256x1 p 0).trans ?_
  refine (Ideal.multiReduction_maximumf_single _ _ reduces_S256x1024_S256 _ _ (ix1 p)).trans ?_
  refine Finset.fold_congr fun q _ => ?_
  show select _ S _ (reduces_S256x1024_S256.lift (ix1 p) q) = _
  rw [lift_row p q]
  rfl

/-! ## One trip, in the words of the specification -/

section Row

variable (x0 : Vec Ideal S256x128 .f32) (x1 : Vec Ideal S256x1 .i32) (x2 : Vec Ideal S8192x128 .f32)
  (x3 : Vec Ideal S1x8192 .i32) (p : Fin 256)

/-- Column `n`'s term of the row's minimum: its similarity when the pair is positive, `+∞` otherwise. -/
abbrev fPos (n : Fin 8192) : EReal :=
  Msl.masked (Msl.pos (fun d => x0 (ix2 p d)) (x1 (ix2 p (0 : Fin 1))) (fun n d => x2 (ix2 n d))
      (fun n => x3 (ix2 (0 : Fin 1) n)) n)
    (Msl.sim (fun d => x0 (ix2 p d)) (fun n d => x2 (ix2 n d)) n) Msl.cInf

/-- Column `n`'s term of the row's maximum: its similarity when the pair is negative, `-∞` otherwise. -/
abbrev fNeg (n : Fin 8192) : EReal :=
  Msl.masked (Msl.neg (x1 (ix2 p (0 : Fin 1))) (fun n => x3 (ix2 (0 : Fin 1) n)) n)
    (Msl.sim (fun d => x0 (ix2 p d)) (fun n d => x2 (ix2 n d)) n) Msl.cNegInf

/-- Against trip `k`'s rows the product at `(p, q)` is the row's similarity with column `chunkCol k q`. -/
theorem sim_chunk (k : Fin k0_t1_loop.trips) (q : Fin 1024) :
    k0_pay10 (F := Ideal) x0 (rows1 x2 k) (ix2 p q)
      = Msl.sim (fun d => x0 (ix2 p d)) (fun n d => x2 (ix2 n d)) (Msl.chunkCol ⟨k.val, k.isLt⟩ q) :=
  (sim_apply x0 _ p q).trans (Finset.sum_congr rfl fun d _ => congrArg (x0 (ix2 p d) * ·) (rows1_apply x2 k q d))

/-- Against trip `k`'s labels the mask at `(p, q)` says the row's label agrees with column `chunkCol k q`'s. -/
theorem same_chunk (k : Fin k0_t1_loop.trips) (q : Fin 1024) :
    k0_pay11 (F := Ideal) x1 (lbls1 x3 k) (ix2 p q)
      = Msl.same (x1 (ix2 p (0 : Fin 1))) (fun n => x3 (ix2 (0 : Fin 1) n)) (Msl.chunkCol ⟨k.val, k.isLt⟩ q) :=
  (same_apply x1 _ p q).trans (congrArg (IntOp.cmpi .eq · (x1 (ix2 p (0 : Fin 1)))) (lbls1_apply x3 k q))

/-- Trip `k` takes the row's running minimum against the least of the terms of chunk `k`'s columns. -/
theorem step12 (k : Fin k0_t1_loop.trips) (prev : Vec Ideal S256x1 .f32) :
    k0_pay12 (F := Ideal) x0 x1 (rows1 x2 k) (lbls1 x3 k) prev (ix2 p (0 : Fin 1))
      = min (prev (ix2 p (0 : Fin 1)))
          ((Finset.univ : Finset (Fin 1024)).fold min Msl.cInf fun q =>
            fPos x0 x1 x2 x3 p (Msl.chunkCol ⟨k.val, k.isLt⟩ q)) := by
  rw [pay12_apply]
  refine congrArg (min _) (Finset.fold_congr fun q _ => ?_)
  rw [sim_chunk, same_chunk]
  rfl

/-- Trip `k` takes the row's running maximum against the greatest of the terms of chunk `k`'s columns. -/
theorem step13 (k : Fin k0_t1_loop.trips) (prev : Vec Ideal S256x1 .f32) :
    k0_pay13 (F := Ideal) x0 x1 (rows1 x2 k) (lbls1 x3 k) prev (ix2 p (0 : Fin 1))
      = max (prev (ix2 p (0 : Fin 1)))
          ((Finset.univ : Finset (Fin 1024)).fold max Msl.cNegInf fun q =>
            fNeg x0 x1 x2 x3 p (Msl.chunkCol ⟨k.val, k.isLt⟩ q)) := by
  rw [pay13_apply]
  refine congrArg (max _) (Finset.fold_congr fun q _ => ?_)
  rw [sim_chunk, same_chunk]
  rfl

/-! ## The walk

A minimum is known by its lower bounds and a maximum by its upper bounds. After `k` trips the running minimum's
lower bounds are exactly the common lower bounds of `+∞` and of the terms of the first `1024 k` columns, and the
running maximum's upper bounds the common upper bounds of `-∞` and of those columns' terms: a trip adds chunk `k`'s
columns `1024 k … 1024 k + 1023` to the first `1024 k`. After eight trips these are all the columns. -/

/-- The minimum column starts at `+∞` … -/
theorem pay8_apply (j : S256x1.Idx) : k0_pay8 (F := Ideal) j = Msl.cInf := by
  unfold k0_pay8; simp only [shapeCast_self]; rfl

/-- … and the maximum column at `-∞`. -/
theorem pay9_apply (j : S256x1.Idx) : k0_pay9 (F := Ideal) j = Msl.cNegInf := by
  unfold k0_pay9; simp only [shapeCast_self]; rfl

/-- One more trip, while trips remain, is one more application of the trip's arithmetic. -/
theorem pass1_succ (k : ℕ) (h : k < k0_t1_loop.trips) :
    pass1 (F := Ideal) x0 x1 x2 x3 (k + 1)
      = (k0_pay12 x0 x1 (rows1 x2 ⟨k, h⟩) (lbls1 x3 ⟨k, h⟩) (pass1 (F := Ideal) x0 x1 x2 x3 k).1,
         k0_pay13 x0 x1 (rows1 x2 ⟨k, h⟩) (lbls1 x3 ⟨k, h⟩) (pass1 (F := Ideal) x0 x1 x2 x3 k).2) :=
  dif_pos h

/-- The two columns after `k` trips, by their bounds. -/
theorem pass1_inv (k : ℕ) (hk : k ≤ 8) :
    (∀ c : EReal, c ≤ (pass1 (F := Ideal) x0 x1 x2 x3 k).1 (ix2 p (0 : Fin 1))
        ↔ c ≤ Msl.cInf ∧ ∀ n : Fin 8192, n.val < 1024 * k → c ≤ fPos x0 x1 x2 x3 p n)
    ∧ (∀ c : EReal, (pass1 (F := Ideal) x0 x1 x2 x3 k).2 (ix2 p (0 : Fin 1)) ≤ c
        ↔ Msl.cNegInf ≤ c ∧ ∀ n : Fin 8192, n.val < 1024 * k → fNeg x0 x1 x2 x3 p n ≤ c) := by
  induction k with
  | zero =>
    refine ⟨fun c => ?_, fun c => ?_⟩
    · show c ≤ k0_pay8 (F := Ideal) (ix2 p (0 : Fin 1)) ↔ _
      rw [pay8_apply]
      exact ⟨fun h => ⟨h, fun n hn => absurd hn (by omega)⟩, fun h => h.1⟩
    · show k0_pay9 (F := Ideal) (ix2 p (0 : Fin 1)) ≤ c ↔ _
      rw [pay9_apply]
      exact ⟨fun h => ⟨h, fun n hn => absurd hn (by omega)⟩, fun h => h.1⟩
  | succ k ih =>
    have h : k < k0_t1_loop.trips := by rw [trips_eq]; omega
    obtain ⟨ihmin, ihmax⟩ := ih (by omega)
    -- a column below `1024 (k + 1)` that is not below `1024 k` is a column of chunk `k` …
    have hsplit : ∀ (n : Fin 8192) (h1 : n.val < 1024 * (k + 1)), ¬ n.val < 1024 * k →
        n = Msl.chunkCol ⟨k, by omega⟩ ⟨n.val - 1024 * k, by omega⟩ := fun n h1 h2 =>
      Fin.ext (by show n.val = 1024 * k + (n.val - 1024 * k); omega)
    -- … and every column of chunk `k` is below `1024 (k + 1)`.
    have hin : ∀ q : Fin 1024, (Msl.chunkCol ⟨k, by omega⟩ q).val < 1024 * (k + 1) := fun q => by
      show 1024 * k + q.val < 1024 * (k + 1); have := q.isLt; omega
    rw [pass1_succ x0 x1 x2 x3 k h]
    refine ⟨fun c => ?_, fun c => ?_⟩
    · show c ≤ k0_pay12 (F := Ideal) x0 x1 (rows1 x2 ⟨k, h⟩) (lbls1 x3 ⟨k, h⟩) _ (ix2 p (0 : Fin 1)) ↔ _
      rw [step12, le_min_iff, ihmin c, Finset.le_fold_min]
      constructor
      · rintro ⟨⟨h0, h1⟩, -, h2⟩
        refine ⟨h0, fun n hn => ?_⟩
        by_cases hlt : n.val < 1024 * k
        · exact h1 n hlt
        · rw [hsplit n hn hlt]; exact h2 _ (Finset.mem_univ _)
      · rintro ⟨h0, h1⟩
        exact ⟨⟨h0, fun n hn => h1 n (by omega)⟩, h0, fun q _ => h1 _ (hin q)⟩
    · show k0_pay13 (F := Ideal) x0 x1 (rows1 x2 ⟨k, h⟩) (lbls1 x3 ⟨k, h⟩) _ (ix2 p (0 : Fin 1)) ≤ c ↔ _
      rw [step13, max_le_iff, ihmax c, Finset.fold_max_le]
      constructor
      · rintro ⟨⟨h0, h1⟩, -, h2⟩
        refine ⟨h0, fun n hn => ?_⟩
        by_cases hlt : n.val < 1024 * k
        · exact h1 n hlt
        · rw [hsplit n hn hlt]; exact h2 _ (Finset.mem_univ _)
      · rintro ⟨h0, h1⟩
        exact ⟨⟨h0, fun n hn => h1 n (by omega)⟩, h0, fun q _ => h1 _ (hin q)⟩

end Row

end Readings

/-- After the first walk: the row's least positive similarity and greatest negative similarity. -/
theorem pass1_eq (x0 : Vec Ideal S256x128 .f32) (x1 : Vec Ideal S256x1 .i32) (x2 : Vec Ideal S8192x128 .f32)
    (x3 : Vec Ideal S1x8192 .i32) (p : Fin 256) :
    ((Cert.KernelIdeal.Passes.pass1 (F := Ideal) x0 x1 x2 x3 k0_t1_loop.trips).1 (ix2 p 0) : EReal)
        = Cert.Proof.Msl.minPos (fun d => x0 (ix2 p d)) (x1 (ix2 p 0)) (fun n d => x2 (ix2 n d)) (fun n => x3 (ix2 0 n))
    ∧ ((Cert.KernelIdeal.Passes.pass1 (F := Ideal) x0 x1 x2 x3 k0_t1_loop.trips).2 (ix2 p 0) : EReal)
        = Cert.Proof.Msl.maxNeg (fun d => x0 (ix2 p d)) (x1 (ix2 p 0)) (fun n d => x2 (ix2 n d)) (fun n => x3 (ix2 0 n)) := by
  rw [trips_eq]
  obtain ⟨hmin, hmax⟩ := pass1_inv x0 x1 x2 x3 p 8 le_rfl
  -- all 8192 columns lie below `1024 · 8`: the bounds after eight trips are the bounds of the fold over every column
  refine ⟨eq_of_forall_le_iff fun c => ?_, eq_of_forall_ge_iff fun c => ?_⟩
  · rw [hmin c]; unfold Cert.Proof.Msl.minPos; rw [Finset.le_fold_min]
    exact and_congr_right fun _ =>
      ⟨fun h n _ => h n (by have := n.isLt; omega), fun h n _ => h n (Finset.mem_univ _)⟩
  · rw [hmax c]; unfold Cert.Proof.Msl.maxNeg; rw [Finset.fold_max_le]
    exact and_congr_right fun _ =>
      ⟨fun h n _ => h n (by have := n.isLt; omega), fun h n _ => h n (Finset.mem_univ _)⟩

end Cert.KernelIdeal.Pass1Math

end
-- ==== Proof.Pass2Math.lean ====
/-
  The second walk over the second matrix, on the extended reals: given columns holding each row's least positive
  and greatest negative similarity, after all its trips the four running sums hold, at each row of the tile, the sum
  over ALL 8192 columns of the mined positive pairs' exponentials, of the mined negative pairs', and the two counts
  of mined pairs — a sum accumulated chunk by chunk from zero is the sum over all the columns.
-/
import proofs.«147075_j1769526526575_1_alg».proof.Proof.Passes
import proofs.«147075_j1769526526575_1_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.Pass2Math

open Cert.KernelIdeal Cert.KernelIdeal.Gen Idealize.ShloMosaic Idealize.ShloMosaic.ValueIdx

open Cert.Proof

/-! ## Two layout facts about a column

A vector of length `a` viewed as an `a × 1` column, and such a column spread across `b` columns. -/

section Layout
variable {α : Type}

/-- A vector of length `a` viewed as an `a × 1` column reads, at row `i`, the vector's entry `i`: both sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread across `b` columns reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The similarities of the tile with a chunk

The product contracts axis 1 of the tile (256 × 128) with axis 1 of the chunk (1024 × 128): at result entry `(p, q)`
and contraction position `d` it reads the tile at `(p, d)` and the chunk at `(q, d)`. -/

theorem lhs_ax0 (i : S256x1024.Idx) (c : dot_S256x128_S1024x128_S256x1024_1_1_0_0_n_n.contr.Idx) :
    (dot_S256x128_S1024x128_S256x1024_1_1_0_0_n_n.lhsIdx i c 0).val = (i 0).val := by
  unfold DotDims.lhsIdx
  rw [dif_neg (show ¬(0 : Fin S256x128.rank) ∈ dot_S256x128_S1024x128_S256x1024_1_1_0_0_n_n.lhsBatch by decide), dif_pos (show (0 : Fin S256x128.rank) ∈ dot_S256x128_S1024x128_S256x1024_1_1_0_0_n_n.lhsNonContracting by decide)]
  rfl
theorem lhs_ax1 (i : S256x1024.Idx) (c : dot_S256x128_S1024x128_S256x1024_1_1_0_0_n_n.contr.Idx) :
    (dot_S256x128_S1024x128_S256x1024_1_1_0_0_n_n.lhsIdx i c 1).val = (c ⟨0, by decide⟩).val :=
  dot_S256x128_S1024x128_S256x1024_1_1_0_0_n_n.lhsIdx_val_of_single rfl i c
theorem rhs_ax0 (i : S256x1024.Idx) (c : dot_S256x128_S1024x128_S256x1024_1_1_0_0_n_n.contr.Idx) :
    (dot_S256x128_S1024x128_S256x1024_1_1_0_0_n_n.rhsIdx i c 0).val = (i 1).val := by
  unfold DotDims.rhsIdx
  rw [dif_neg (show ¬(0 : Fin S1024x128.rank) ∈ dot_S256x128_S1024x128_S256x1024_1_1_0_0_n_n.rhsBatch by decide), dif_pos (show (0 : Fin S1024x128.rank) ∈ dot_S256x128_S1024x128_S256x1024_1_1_0_0_n_n.rhsNonContracting by decide)]
  rfl
theorem rhs_ax1 (i : S256x1024.Idx) (c : dot_S256x128_S1024x128_S256x1024_1_1_0_0_n_n.contr.Idx) :
    (dot_S256x128_S1024x128_S256x1024_1_1_0_0_n_n.rhsIdx i c 1).val = (c ⟨0, by decide⟩).val :=
  dot_S256x128_S1024x128_S256x1024_1_1_0_0_n_n.rhsIdx_val_of_single rfl i c

/-- Entry `(p, q)` of the product is the inner product of row `p` of the tile with row `q` of the chunk: the product
    accumulates into zero, and its contraction index is the one coordinate `d`. -/
theorem pay1_apply (v0 : Vec Ideal S256x128 .f32) (v63 : Vec Ideal S1024x128 .f32) (p : Fin 256) (q : Fin 1024) :
    (k0_pay1 (F := Ideal) v0 v63 (ix2 p q) : EReal) = ∑ d : Fin 128, v0 (ix2 p d) * v63 (ix2 q d) := by
  unfold k0_pay1
  simp only [matmul]
  rw [Ideal.matmul_constant_zero_apply, ← Equiv.sum_comp (contrEquiv1 dot_S256x128_S1024x128_S256x1024_1_1_0_0_n_n 128 rfl rfl).symm]
  refine Finset.sum_congr rfl fun k _ => ?_
  have hk := contrEquiv1_symm_val dot_S256x128_S1024x128_S256x1024_1_1_0_0_n_n 128 rfl rfl k
  have el : dot_S256x128_S1024x128_S256x1024_1_1_0_0_n_n.lhsIdx (ix2 p q) ((contrEquiv1 dot_S256x128_S1024x128_S256x1024_1_1_0_0_n_n 128 rfl rfl).symm k) = ix2 p k := funext fun a => Fin.ext (by
    match a with
    | ⟨0, _⟩ => exact lhs_ax0 _ _
    | ⟨1, _⟩ => exact (lhs_ax1 _ _).trans hk)
  have er : dot_S256x128_S1024x128_S256x1024_1_1_0_0_n_n.rhsIdx (ix2 p q) ((contrEquiv1 dot_S256x128_S1024x128_S256x1024_1_1_0_0_n_n 128 rfl rfl).symm k) = ix2 q k := funext fun a => Fin.ext (by
    match a with
    | ⟨0, _⟩ => exact rhs_ax0 _ _
    | ⟨1, _⟩ => exact (rhs_ax1 _ _).trans hk)
  rw [el, er]

/-! ## A trip's chunk

Trip `k` loads rows `1024 k …` of the second matrix and the labels of columns `1024 k …`: chunk `k` of the 8. -/

/-- The chunk a trip of the second walk loads (there are at most 8 trips). -/
def chunkOf (k : Fin k0_t2_loop.trips) : Fin 8 := ⟨k.val, lt_of_lt_of_le k.isLt k0_t2_abs.2.1⟩

/-- Row `q` of the loaded rows is row `1024 k + q` of the second matrix. -/
theorem rows2_apply (x2 : Vec Ideal S8192x128 .f32) (k : Fin k0_t2_loop.trips) (q : Fin 1024) (d : Fin 128) :
    (Passes.rows2 (F := Ideal) x2 k (ix2 q d) : EReal) = x2 (ix2 (Msl.chunkCol (chunkOf k) q) d) := by
  have h0 : k0_off3 k 0 = 1024 * k.val := congrFun (k0_off3_eq k) 0
  have h1 : k0_off3 k 1 = 0 := congrFun (k0_off3_eq k) 1
  refine congrArg x2 (funext fun a => Fin.ext ?_)
  match a with
  | ⟨0, _⟩ => show k0_off3 k 0 + 1 * q.val = 1024 * k.val + q.val; omega
  | ⟨1, _⟩ => show k0_off3 k 1 + 1 * d.val = d.val; omega

/-- Label `q` of the loaded labels is label `1024 k + q` of the second matrix's. -/
theorem lbls2_apply (x3 : Vec Ideal S1x8192 .i32) (k : Fin k0_t2_loop.trips) (q : Fin 1024) :
    (Passes.lbls2 (F := Ideal) x3 k (ix2 (0 : Fin 1) q) : BitVec 32) = x3 (ix2 (0 : Fin 1) (Msl.chunkCol (chunkOf k) q)) := by
  have h0 : k0_off4 k 0 = 0 := congrFun (k0_off4_eq k) 0
  have h1 : k0_off4 k 1 = 1024 * k.val := congrFun (k0_off4_eq k) 1
  refine congrArg x3 (funext fun a => Fin.ext ?_)
  match a with
  | ⟨0, _⟩ => show k0_off4 k 0 + 1 * 0 = 0; omega
  | ⟨1, _⟩ => show k0_off4 k 1 + 1 * q.val = 1024 * k.val + q.val; omega

/-! ## The masks and the exponentials at one pair

Each is elementwise in the similarity, the two labels and the row's column entry; only the spreading of the labels
down the rows, and of the row's label and column entry across the columns, moves an index. -/

/-- The same-label mask at `(p, q)` compares the chunk's label `q` with the tile's label `p`. -/
theorem pay2_apply (v2 : IVec S256x1 32) (v65 : Vec Ideal S1x1024 .i32) (p : Fin 256) (q : Fin 1024) :
    k0_pay2 (F := Ideal) v2 v65 (ix2 p q) = IntOp.cmpi .eq (v65 (ix2 (0 : Fin 1) q)) (v2 (ix2 p (0 : Fin 1))) := by
  unfold k0_pay2
  show IntOp.cmpi .eq (broadcastTo S256x1024 (shapeCast S1x1024 v65 shapeCasts_S1x1024_S1x1024) broadcasts_S1x1024_S256x1024 (ix2 p q))
      (broadcastTo S256x1024 v2 broadcasts_S256x1_S256x1024 (ix2 p q)) = _
  rw [broadcastTo_1b_ab_apply, broadcastTo_a1_ab_apply, shapeCast_self]

/-- The mined-negative mask at `(p, q)`: labels differ, and the similarity plus the margin exceeds the row's entry
    of the column `v12`. -/
theorem pay3_apply (v0 : Vec Ideal S256x128 .f32) (v2 : IVec S256x1 32) (v12 : Vec Ideal S256x1 .f32) (v63 : Vec Ideal S1024x128 .f32)
    (v65 : Vec Ideal S1x1024 .i32) (p : Fin 256) (q : Fin 1024) :
    k0_pay3 (F := Ideal) v0 v2 v12 v63 v65 (ix2 p q)
      = IntOp.andi (IntOp.xori (k0_pay2 (F := Ideal) v2 v65 (ix2 p q)) 1#1)
          (Ideal.cmp .ogt ((k0_pay1 (F := Ideal) v0 v63 (ix2 p q) : EReal) + Msl.cMargin) (v12 (ix2 p (0 : Fin 1)))) := by
  unfold k0_pay3
  show IntOp.andi (IntOp.xori (k0_pay2 (F := Ideal) v2 v65 (ix2 p q)) 1#1)
      (Ideal.cmp .ogt ((k0_pay1 (F := Ideal) v0 v63 (ix2 p q) : EReal) + Msl.cMargin) (broadcastTo S256x1024 v12 broadcasts_S256x1_S256x1024 (ix2 p q))) = _
  rw [broadcastTo_a1_ab_apply]

/-- The mined-positive mask at `(p, q)`: labels agree, the similarity is below the threshold, and the similarity
    minus the margin is below the row's entry of the column `v13`. -/
theorem pay4_apply (v0 : Vec Ideal S256x128 .f32) (v2 : IVec S256x1 32) (v13 : Vec Ideal S256x1 .f32) (v63 : Vec Ideal S1024x128 .f32)
    (v65 : Vec Ideal S1x1024 .i32) (p : Fin 256) (q : Fin 1024) :
    k0_pay4 (F := Ideal) v0 v2 v13 v63 v65 (ix2 p q)
      = IntOp.andi (IntOp.andi (k0_pay2 (F := Ideal) v2 v65 (ix2 p q)) (Ideal.cmp .olt (k0_pay1 (F := Ideal) v0 v63 (ix2 p q) : EReal) Msl.cOne))
          (Ideal.cmp .olt ((k0_pay1 (F := Ideal) v0 v63 (ix2 p q) : EReal) - Msl.cMargin) (v13 (ix2 p (0 : Fin 1)))) := by
  unfold k0_pay4
  show IntOp.andi (IntOp.andi (k0_pay2 (F := Ideal) v2 v65 (ix2 p q)) (Ideal.cmp .olt (k0_pay1 (F := Ideal) v0 v63 (ix2 p q) : EReal) Msl.cOne))
      (Ideal.cmp .olt ((k0_pay1 (F := Ideal) v0 v63 (ix2 p q) : EReal) - Msl.cMargin) (broadcastTo S256x1024 v13 broadcasts_S256x1_S256x1024 (ix2 p q))) = _
  rw [broadcastTo_a1_ab_apply]

/-- A mined positive pair's term `exp(-2 (s - 1/2))`, zero off the mask: elementwise. -/
theorem pay5_apply (v0 : Vec Ideal S256x128 .f32) (v2 : IVec S256x1 32) (v13 : Vec Ideal S256x1 .f32) (v63 : Vec Ideal S1024x128 .f32)
    (v65 : Vec Ideal S1x1024 .i32) (p : Fin 256) (q : Fin 1024) :
    (k0_pay5 (F := Ideal) v0 v2 v13 v63 v65 (ix2 p q) : EReal)
      = Scalar.select (k0_pay4 (F := Ideal) v0 v2 v13 v63 v65 (ix2 p q))
          (Ideal.exp (Msl.cNegTwo * ((k0_pay1 (F := Ideal) v0 v63 (ix2 p q) : EReal) - Msl.cHalf))) Msl.cZero := rfl

/-- A mined negative pair's term `exp(40 (s - 1/2))`, zero off the mask: elementwise. -/
theorem pay6_apply (v0 : Vec Ideal S256x128 .f32) (v2 : IVec S256x1 32) (v12 : Vec Ideal S256x1 .f32) (v63 : Vec Ideal S1024x128 .f32)
    (v65 : Vec Ideal S1x1024 .i32) (p : Fin 256) (q : Fin 1024) :
    (k0_pay6 (F := Ideal) v0 v2 v12 v63 v65 (ix2 p q) : EReal)
      = Scalar.select (k0_pay3 (F := Ideal) v0 v2 v12 v63 v65 (ix2 p q))
          (Ideal.exp (Msl.cForty * ((k0_pay1 (F := Ideal) v0 v63 (ix2 p q) : EReal) - Msl.cHalf))) Msl.cZero := rfl

/-! ## A trip's update of a running sum

Each of the four columns gains, at row `p`, the sum over the chunk's 1024 columns of that row's terms. -/

/-- Row `p` of a `256 × 1024` array summed along its columns: the source indices over row `p` are `(p, q)`. -/
theorem rowsum_apply (src : FVec Ideal S256x1024 .f32) (p : Fin 256) :
    (multiReduction (F := Ideal) .add [1] S256 src 0x00000000#32 reduces_S256x1024_S256 (.inl rfl) rfl (ix1 p) : EReal)
      = ∑ q : Fin 1024, src (ix2 p q) := by
  refine (Ideal.multiReduction_add_single src 0x00000000#32 reduces_S256x1024_S256 (.inl rfl) rfl (ix1 p)).trans ?_
  refine Finset.sum_congr rfl fun q _ => congrArg src (funext fun a => Fin.ext ?_)
  match a with
  | ⟨0, _⟩ => rfl
  | ⟨1, _⟩ => rfl

/-- The positive pairs' running sum after a trip: what it held plus the chunk's row sum. -/
theorem pay18_apply (v91 : FVec Ideal S256x1024 .f32) (v99 : Vec Ideal S256x1 .f32) (p : Fin 256) :
    (k0_pay18 (F := Ideal) v91 v99 (ix2 p (0 : Fin 1)) : EReal) = v99 (ix2 p (0 : Fin 1)) + ∑ q : Fin 1024, v91 (ix2 p q) := by
  unfold k0_pay18
  rw [shapeCast_self]
  show (v99 (ix2 p (0 : Fin 1)) : EReal) + shapeCast S256x1 (multiReduction (F := Ideal) .add [1] S256 v91 0x00000000#32 reduces_S256x1024_S256 (.inl rfl) rfl) shapeCasts_S256_S256x1 (ix2 p (0 : Fin 1)) = _
  rw [shapeCast_a_a1_apply, rowsum_apply]

/-- The negative pairs' running sum after a trip, likewise. -/
theorem pay19_apply (v98 : FVec Ideal S256x1024 .f32) (v106 : Vec Ideal S256x1 .f32) (p : Fin 256) :
    (k0_pay19 (F := Ideal) v98 v106 (ix2 p (0 : Fin 1)) : EReal) = v106 (ix2 p (0 : Fin 1)) + ∑ q : Fin 1024, v98 (ix2 p q) := by
  unfold k0_pay19
  rw [shapeCast_self]
  show (v106 (ix2 p (0 : Fin 1)) : EReal) + shapeCast S256x1 (multiReduction (F := Ideal) .add [1] S256 v98 0x00000000#32 reduces_S256x1024_S256 (.inl rfl) rfl) shapeCasts_S256_S256x1 (ix2 p (0 : Fin 1)) = _
  rw [shapeCast_a_a1_apply, rowsum_apply]

/-- The count of mined positive pairs after a trip: what it held plus the chunk's row sum of the mask read as 0 or 1. -/
theorem pay20_apply (v84 : IVec S256x1024 1) (v113 : Vec Ideal S256x1 .f32) (p : Fin 256) :
    (k0_pay20 (F := Ideal) v84 v113 (ix2 p (0 : Fin 1)) : EReal) = v113 (ix2 p (0 : Fin 1)) + ∑ q : Fin 1024, Msl.ind (v84 (ix2 p q)) := by
  unfold k0_pay20
  rw [shapeCast_self]
  show (v113 (ix2 p (0 : Fin 1)) : EReal) + shapeCast S256x1 (multiReduction (F := Ideal) .add [1] S256 (sitofp .f32 (extui 32 v84 natLt_1_32)) 0x00000000#32 reduces_S256x1024_S256 (.inl rfl) rfl) shapeCasts_S256_S256x1 (ix2 p (0 : Fin 1)) = _
  rw [shapeCast_a_a1_apply, rowsum_apply]
  rfl

/-- The count of mined negative pairs after a trip, likewise. -/
theorem pay21_apply (v79 : IVec S256x1024 1) (v122 : Vec Ideal S256x1 .f32) (p : Fin 256) :
    (k0_pay21 (F := Ideal) v79 v122 (ix2 p (0 : Fin 1)) : EReal) = v122 (ix2 p (0 : Fin 1)) + ∑ q : Fin 1024, Msl.ind (v79 (ix2 p q)) := by
  unfold k0_pay21
  rw [shapeCast_self]
  show (v122 (ix2 p (0 : Fin 1)) : EReal) + shapeCast S256x1 (multiReduction (F := Ideal) .add [1] S256 (sitofp .f32 (extui 32 v79 natLt_1_32)) 0x00000000#32 reduces_S256x1024_S256 (.inl rfl) rfl) shapeCasts_S256_S256x1 (ix2 p (0 : Fin 1)) = _
  rw [shapeCast_a_a1_apply, rowsum_apply]
  rfl

/-- The four columns the walk starts from are zero. -/
theorem pay14_apply (p : Fin 256) : (k0_pay14 (F := Ideal) (ix2 p (0 : Fin 1)) : EReal) = 0 := by
  unfold k0_pay14; rw [shapeCast_self]; exact Ideal.ofBits_zero_f32
theorem pay15_apply (p : Fin 256) : (k0_pay15 (F := Ideal) (ix2 p (0 : Fin 1)) : EReal) = 0 := by
  unfold k0_pay15; rw [shapeCast_self]; exact Ideal.ofBits_zero_f32
theorem pay16_apply (p : Fin 256) : (k0_pay16 (F := Ideal) (ix2 p (0 : Fin 1)) : EReal) = 0 := by
  unfold k0_pay16; rw [shapeCast_self]; exact Ideal.ofBits_zero_f32
theorem pay17_apply (p : Fin 256) : (k0_pay17 (F := Ideal) (ix2 p (0 : Fin 1)) : EReal) = 0 := by
  unfold k0_pay17; rw [shapeCast_self]; exact Ideal.ofBits_zero_f32

/-! ## One trip against the specification

With the tile's row `p` and column `q` of chunk `k`, the trip's similarity, masks and exponentials are the
specification's at column `1024 k + q` of the row, term by term; the two columns `lo` and `hi` enter through their
entries at row `p`, which are the row's least positive and greatest negative similarity. -/

section Trip

variable (x0 : Vec Ideal S256x128 .f32) (x1 : Vec Ideal S256x1 .i32) (x2 : Vec Ideal S8192x128 .f32) (x3 : Vec Ideal S1x8192 .i32)

/-- The similarity of row `p` of the tile with column `q` of the chunk trip `k` loads. -/
theorem sim_trip (k : Fin k0_t2_loop.trips) (p : Fin 256) (q : Fin 1024) :
    (k0_pay1 (F := Ideal) x0 (Passes.rows2 x2 k) (ix2 p q) : EReal)
      = Msl.sim (fun d => x0 (ix2 p d)) (fun n d => x2 (ix2 n d)) (Msl.chunkCol (chunkOf k) q) := by
  rw [pay1_apply]
  unfold Msl.sim
  refine Finset.sum_congr rfl fun d _ => ?_
  rw [rows2_apply]

/-- Their labels agree, as the specification says it. -/
theorem same_trip (k : Fin k0_t2_loop.trips) (p : Fin 256) (q : Fin 1024) :
    k0_pay2 (F := Ideal) (k0_pay7 x1) (Passes.lbls2 x3 k) (ix2 p q)
      = Msl.same (x1 (ix2 p 0)) (fun n => x3 (ix2 0 n)) (Msl.chunkCol (chunkOf k) q) := by
  rw [pay2_apply, lbls2_apply]
  unfold k0_pay7
  rw [shapeCast_self]
  rfl

/-- The pair is a mined negative one, as the specification says it. -/
theorem negM_trip (lo : Vec Ideal S256x1 .f32) (hlo : ∀ p : Fin 256, (lo (ix2 p 0) : EReal) = Cert.Proof.Msl.minPos (fun d => x0 (ix2 p d)) (x1 (ix2 p 0)) (fun n d => x2 (ix2 n d)) (fun n => x3 (ix2 0 n))) (k : Fin k0_t2_loop.trips) (p : Fin 256) (q : Fin 1024) :
    k0_pay3 (F := Ideal) x0 (k0_pay7 x1) lo (Passes.rows2 x2 k) (Passes.lbls2 x3 k) (ix2 p q) = Msl.negM (fun d => x0 (ix2 p d)) (x1 (ix2 p 0)) (fun n d => x2 (ix2 n d)) (fun n => x3 (ix2 0 n)) (Msl.chunkCol (chunkOf k) q) := by
  rw [pay3_apply, same_trip, sim_trip, hlo p]
  rfl

/-- The pair is a mined positive one, as the specification says it. -/
theorem posM_trip (hi : Vec Ideal S256x1 .f32) (hhi : ∀ p : Fin 256, (hi (ix2 p 0) : EReal) = Cert.Proof.Msl.maxNeg (fun d => x0 (ix2 p d)) (x1 (ix2 p 0)) (fun n d => x2 (ix2 n d)) (fun n => x3 (ix2 0 n))) (k : Fin k0_t2_loop.trips) (p : Fin 256) (q : Fin 1024) :
    k0_pay4 (F := Ideal) x0 (k0_pay7 x1) hi (Passes.rows2 x2 k) (Passes.lbls2 x3 k) (ix2 p q) = Msl.posM (fun d => x0 (ix2 p d)) (x1 (ix2 p 0)) (fun n d => x2 (ix2 n d)) (fun n => x3 (ix2 0 n)) (Msl.chunkCol (chunkOf k) q) := by
  rw [pay4_apply, same_trip, sim_trip, hhi p]
  rfl

/-- The pair's positive term. -/
theorem posExp_trip (hi : Vec Ideal S256x1 .f32) (hhi : ∀ p : Fin 256, (hi (ix2 p 0) : EReal) = Cert.Proof.Msl.maxNeg (fun d => x0 (ix2 p d)) (x1 (ix2 p 0)) (fun n d => x2 (ix2 n d)) (fun n => x3 (ix2 0 n))) (k : Fin k0_t2_loop.trips) (p : Fin 256) (q : Fin 1024) :
    (k0_pay5 (F := Ideal) x0 (k0_pay7 x1) hi (Passes.rows2 x2 k) (Passes.lbls2 x3 k) (ix2 p q) : EReal) = Msl.posExp (fun d => x0 (ix2 p d)) (x1 (ix2 p 0)) (fun n d => x2 (ix2 n d)) (fun n => x3 (ix2 0 n)) (Msl.chunkCol (chunkOf k) q) := by
  rw [pay5_apply, posM_trip x0 x1 x2 x3 hi hhi, sim_trip]
  rfl

/-- The pair's negative term. -/
theorem negExp_trip (lo : Vec Ideal S256x1 .f32) (hlo : ∀ p : Fin 256, (lo (ix2 p 0) : EReal) = Cert.Proof.Msl.minPos (fun d => x0 (ix2 p d)) (x1 (ix2 p 0)) (fun n d => x2 (ix2 n d)) (fun n => x3 (ix2 0 n))) (k : Fin k0_t2_loop.trips) (p : Fin 256) (q : Fin 1024) :
    (k0_pay6 (F := Ideal) x0 (k0_pay7 x1) lo (Passes.rows2 x2 k) (Passes.lbls2 x3 k) (ix2 p q) : EReal) = Msl.negExp (fun d => x0 (ix2 p d)) (x1 (ix2 p 0)) (fun n d => x2 (ix2 n d)) (fun n => x3 (ix2 0 n)) (Msl.chunkCol (chunkOf k) q) := by
  rw [pay6_apply, negM_trip x0 x1 x2 x3 lo hlo, sim_trip]
  rfl

end Trip

/-! ## The walk

A running sum that starts at zero and gains one chunk's sum per trip holds, after all the trips, the sum over the 8
chunks of the chunk sums: the sum over all 8192 columns. Addition on the extended reals is a commutative monoid, so
nothing here asks the terms to be finite. -/

section Walk

/-- What trip `n` adds to a running sum whose chunk sums are `g`: the sum over the chunk the trip loads, and nothing
    once the trips are over. -/
def tripTerm (g : Fin 8 → EReal) (n : ℕ) : EReal :=
  if h : n < k0_t2_loop.trips then g (chunkOf ⟨n, h⟩) else 0

theorem tripTerm_of_lt (g : Fin 8 → EReal) {n : ℕ} (h : n < k0_t2_loop.trips) : tripTerm g n = g (chunkOf ⟨n, h⟩) := dif_pos h
theorem tripTerm_of_not_lt (g : Fin 8 → EReal) {n : ℕ} (h : ¬ n < k0_t2_loop.trips) : tripTerm g n = 0 := dif_neg h

/-- The walk makes exactly 8 trips. -/
theorem trips8 : k0_t2_loop.trips = 8 := by decide

/-- The trips' terms, summed over all the trips, are the chunk sums summed over the 8 chunks: trip `n` loads chunk `n`. -/
theorem sum_tripTerm (g : Fin 8 → EReal) : ∑ n ∈ Finset.range k0_t2_loop.trips, tripTerm g n = ∑ K : Fin 8, g K := by
  have key : ∀ (T : ℕ) (hT : T = 8) (c : Fin T → Fin 8) (hc : ∀ k, (c k).val = k.val),
      ∑ n ∈ Finset.range T, (if h : n < T then g (c ⟨n, h⟩) else 0) = ∑ K : Fin 8, g K := by
    intro T hT c hc
    subst hT
    rw [Finset.sum_range]
    refine Finset.sum_congr rfl fun K _ => ?_
    rw [dif_pos K.isLt]
    exact congrArg g (Fin.ext (hc _))
  exact key _ trips8 chunkOf (fun _ => rfl)

variable (x0 : Vec Ideal S256x128 .f32) (x1 : Vec Ideal S256x1 .i32) (x2 : Vec Ideal S8192x128 .f32) (x3 : Vec Ideal S1x8192 .i32) (lo hi : Vec Ideal S256x1 .f32)

theorem pass2_zero : Passes.pass2 (F := Ideal) x0 x1 x2 x3 lo hi 0 = (k0_pay14 (F := Ideal), k0_pay15 (F := Ideal), k0_pay16 (F := Ideal), k0_pay17 (F := Ideal)) := by
  rw [Passes.pass2]

theorem pass2_succ (n : ℕ) (h : n < k0_t2_loop.trips) :
    Passes.pass2 (F := Ideal) x0 x1 x2 x3 lo hi (n + 1)
      = (k0_pay18 (k0_pay5 x0 (k0_pay7 x1) hi (Passes.rows2 x2 ⟨n, h⟩) (Passes.lbls2 x3 ⟨n, h⟩)) (Passes.pass2 (F := Ideal) x0 x1 x2 x3 lo hi n).1,
         k0_pay19 (k0_pay6 x0 (k0_pay7 x1) lo (Passes.rows2 x2 ⟨n, h⟩) (Passes.lbls2 x3 ⟨n, h⟩)) (Passes.pass2 (F := Ideal) x0 x1 x2 x3 lo hi n).2.1,
         k0_pay20 (k0_pay4 x0 (k0_pay7 x1) hi (Passes.rows2 x2 ⟨n, h⟩) (Passes.lbls2 x3 ⟨n, h⟩)) (Passes.pass2 (F := Ideal) x0 x1 x2 x3 lo hi n).2.2.1,
         k0_pay21 (k0_pay3 x0 (k0_pay7 x1) lo (Passes.rows2 x2 ⟨n, h⟩) (Passes.lbls2 x3 ⟨n, h⟩)) (Passes.pass2 (F := Ideal) x0 x1 x2 x3 lo hi n).2.2.2) := by
  rw [Passes.pass2, dif_pos h]

theorem pass2_succ_done (n : ℕ) (h : ¬ n < k0_t2_loop.trips) : Passes.pass2 (F := Ideal) x0 x1 x2 x3 lo hi (n + 1) = Passes.pass2 (F := Ideal) x0 x1 x2 x3 lo hi n := by
  rw [Passes.pass2, dif_neg h]

/-- After `n` trips each running sum holds, at row `p`, the sum of the first `n` trips' terms: the chunk sums of the
    row's positive terms, of its negative terms, and of the two masks read as 0 or 1. -/
theorem pass2_inv (hlo : ∀ p : Fin 256, (lo (ix2 p 0) : EReal) = Cert.Proof.Msl.minPos (fun d => x0 (ix2 p d)) (x1 (ix2 p 0)) (fun n d => x2 (ix2 n d)) (fun n => x3 (ix2 0 n))) (hhi : ∀ p : Fin 256, (hi (ix2 p 0) : EReal) = Cert.Proof.Msl.maxNeg (fun d => x0 (ix2 p d)) (x1 (ix2 p 0)) (fun n d => x2 (ix2 n d)) (fun n => x3 (ix2 0 n))) (p : Fin 256) (n : ℕ) :
    ((Passes.pass2 (F := Ideal) x0 x1 x2 x3 lo hi n).1 (ix2 p 0) : EReal)
        = ∑ m ∈ Finset.range n, tripTerm (fun K => ∑ q : Fin 1024, Msl.posExp (fun d => x0 (ix2 p d)) (x1 (ix2 p 0)) (fun n d => x2 (ix2 n d)) (fun n => x3 (ix2 0 n)) (Msl.chunkCol K q)) m
    ∧ ((Passes.pass2 (F := Ideal) x0 x1 x2 x3 lo hi n).2.1 (ix2 p 0) : EReal)
        = ∑ m ∈ Finset.range n, tripTerm (fun K => ∑ q : Fin 1024, Msl.negExp (fun d => x0 (ix2 p d)) (x1 (ix2 p 0)) (fun n d => x2 (ix2 n d)) (fun n => x3 (ix2 0 n)) (Msl.chunkCol K q)) m
    ∧ ((Passes.pass2 (F := Ideal) x0 x1 x2 x3 lo hi n).2.2.1 (ix2 p 0) : EReal)
        = ∑ m ∈ Finset.range n, tripTerm (fun K => ∑ q : Fin 1024, Msl.ind (Msl.posM (fun d => x0 (ix2 p d)) (x1 (ix2 p 0)) (fun n d => x2 (ix2 n d)) (fun n => x3 (ix2 0 n)) (Msl.chunkCol K q))) m
    ∧ ((Passes.pass2 (F := Ideal) x0 x1 x2 x3 lo hi n).2.2.2 (ix2 p 0) : EReal)
        = ∑ m ∈ Finset.range n, tripTerm (fun K => ∑ q : Fin 1024, Msl.ind (Msl.negM (fun d => x0 (ix2 p d)) (x1 (ix2 p 0)) (fun n d => x2 (ix2 n d)) (fun n => x3 (ix2 0 n)) (Msl.chunkCol K q))) m := by
  induction n with
  | zero =>
    rw [pass2_zero]
    simp only [Finset.range_zero, Finset.sum_empty]
    exact ⟨pay14_apply p, pay15_apply p, pay16_apply p, pay17_apply p⟩
  | succ n ih =>
    obtain ⟨ih1, ih2, ih3, ih4⟩ := ih
    simp only [Finset.sum_range_succ]
    by_cases h : n < k0_t2_loop.trips
    · rw [pass2_succ x0 x1 x2 x3 lo hi n h]
      dsimp only
      refine ⟨?_, ?_, ?_, ?_⟩
      · rw [pay18_apply, ih1, tripTerm_of_lt _ h]
        exact congrArg (_ + ·) (Finset.sum_congr rfl fun q _ => posExp_trip x0 x1 x2 x3 hi hhi ⟨n, h⟩ p q)
      · rw [pay19_apply, ih2, tripTerm_of_lt _ h]
        exact congrArg (_ + ·) (Finset.sum_congr rfl fun q _ => negExp_trip x0 x1 x2 x3 lo hlo ⟨n, h⟩ p q)
      · rw [pay20_apply, ih3, tripTerm_of_lt _ h]
        exact congrArg (_ + ·) (Finset.sum_congr rfl fun q _ => congrArg Msl.ind (posM_trip x0 x1 x2 x3 hi hhi ⟨n, h⟩ p q))
      · rw [pay21_apply, ih4, tripTerm_of_lt _ h]
        exact congrArg (_ + ·) (Finset.sum_congr rfl fun q _ => congrArg Msl.ind (negM_trip x0 x1 x2 x3 lo hlo ⟨n, h⟩ p q))
    · rw [pass2_succ_done x0 x1 x2 x3 lo hi n h, ih1, ih2, ih3, ih4]
      refine ⟨?_, ?_, ?_, ?_⟩ <;> rw [tripTerm_of_not_lt _ h, add_zero]

end Walk

/-- After the second walk: the row's two exponential sums and its two counts. -/
theorem pass2_eq (x0 : Vec Ideal S256x128 .f32) (x1 : Vec Ideal S256x1 .i32) (x2 : Vec Ideal S8192x128 .f32)
    (x3 : Vec Ideal S1x8192 .i32) (lo hi : Vec Ideal S256x1 .f32)
    (hlo : ∀ p : Fin 256, (lo (ix2 p 0) : EReal) = Cert.Proof.Msl.minPos (fun d => x0 (ix2 p d)) (x1 (ix2 p 0)) (fun n d => x2 (ix2 n d)) (fun n => x3 (ix2 0 n)))
    (hhi : ∀ p : Fin 256, (hi (ix2 p 0) : EReal) = Cert.Proof.Msl.maxNeg (fun d => x0 (ix2 p d)) (x1 (ix2 p 0)) (fun n d => x2 (ix2 n d)) (fun n => x3 (ix2 0 n)))
    (p : Fin 256) :
    ((Cert.KernelIdeal.Passes.pass2 (F := Ideal) x0 x1 x2 x3 lo hi k0_t2_loop.trips).1 (ix2 p 0) : EReal)
        = Cert.Proof.Msl.posSum (fun d => x0 (ix2 p d)) (x1 (ix2 p 0)) (fun n d => x2 (ix2 n d)) (fun n => x3 (ix2 0 n))
    ∧ ((Cert.KernelIdeal.Passes.pass2 (F := Ideal) x0 x1 x2 x3 lo hi k0_t2_loop.trips).2.1 (ix2 p 0) : EReal)
        = Cert.Proof.Msl.negSum (fun d => x0 (ix2 p d)) (x1 (ix2 p 0)) (fun n d => x2 (ix2 n d)) (fun n => x3 (ix2 0 n))
    ∧ ((Cert.KernelIdeal.Passes.pass2 (F := Ideal) x0 x1 x2 x3 lo hi k0_t2_loop.trips).2.2.1 (ix2 p 0) : EReal)
        = Cert.Proof.Msl.posCnt (fun d => x0 (ix2 p d)) (x1 (ix2 p 0)) (fun n d => x2 (ix2 n d)) (fun n => x3 (ix2 0 n))
    ∧ ((Cert.KernelIdeal.Passes.pass2 (F := Ideal) x0 x1 x2 x3 lo hi k0_t2_loop.trips).2.2.2 (ix2 p 0) : EReal)
        = Cert.Proof.Msl.negCnt (fun d => x0 (ix2 p d)) (x1 (ix2 p 0)) (fun n d => x2 (ix2 n d)) (fun n => x3 (ix2 0 n)) := by
  obtain ⟨h1, h2, h3, h4⟩ := pass2_inv x0 x1 x2 x3 lo hi hlo hhi p k0_t2_loop.trips
  refine ⟨?_, ?_, ?_, ?_⟩
  · rw [h1, sum_tripTerm]
    exact (Msl.sum_chunks (fun n => Msl.posExp (fun d => x0 (ix2 p d)) (x1 (ix2 p 0)) (fun n d => x2 (ix2 n d)) (fun n => x3 (ix2 0 n)) n)).symm
  · rw [h2, sum_tripTerm]
    exact (Msl.sum_chunks (fun n => Msl.negExp (fun d => x0 (ix2 p d)) (x1 (ix2 p 0)) (fun n d => x2 (ix2 n d)) (fun n => x3 (ix2 0 n)) n)).symm
  · rw [h3, sum_tripTerm]
    exact (Msl.sum_chunks (fun n => Msl.ind (Msl.posM (fun d => x0 (ix2 p d)) (x1 (ix2 p 0)) (fun n d => x2 (ix2 n d)) (fun n => x3 (ix2 0 n)) n))).symm
  · rw [h4, sum_tripTerm]
    exact (Msl.sum_chunks (fun n => Msl.ind (Msl.negM (fun d => x0 (ix2 p d)) (x1 (ix2 p 0)) (fun n d => x2 (ix2 n d)) (fun n => x3 (ix2 0 n)) n))).symm

end Cert.KernelIdeal.Pass2Math

end
-- ==== Proof.TileMath.lean ====
/-
  What one grid point's term means on the extended reals: to what the output cell held it adds the sum, over the
  tile's 256 rows, of each row's contribution to the loss — the row's vector and label read off the tile's blocks,
  the second matrix and its labels whole.

  The last step of the grid point is pointwise in the row: from the row's two exponential sums `s⁺`, `s⁻` and its
  two counts it forms `log(1 + s⁺) / 2 + log(1 + s⁻) / 40`, keeps it where both counts are positive and puts zero
  elsewhere (`rowTerm`); the 256 row terms are summed and added to the cell. With the two walks' columns read as the
  row's least positive and greatest negative similarity, and then as its sums and counts, the row term is the
  row's contribution.
-/
import proofs.«147075_j1769526526575_1_alg».proof.Proof.Pass1Math
import proofs.«147075_j1769526526575_1_alg».proof.Proof.Pass2Math

noncomputable section

open scoped BigOperators

namespace Cert.KernelIdeal.TileMath

open Cert.KernelIdeal Cert.KernelIdeal.Gen Idealize.ShloMosaic Idealize.ShloMosaic.ValueIdx
open Cert.Proof

/-- A row's term from its two exponential sums and its two counts. -/
abbrev rowTerm (sPos sNeg cPos cNeg : EReal) : EReal :=
  Msl.masked (IntOp.andi (Ideal.cmp .ogt cPos Msl.cZero) (Ideal.cmp .ogt cNeg Msl.cZero))
    (Ideal.div (Ideal.log1p sPos) Msl.cTwo + Ideal.div (Ideal.log1p sNeg) Msl.cForty) Msl.cZero

/-- Summing a 256-entry column down to one entry reads, at row `k`, the column's entry `(k, 0)`. -/
theorem lift_row (j : S1.Idx) (k : Fin 256) :
    reduces_S256x1_S1.lift j k = (ix2 k (0 : Fin 1) : S256x1.Idx) := by
  funext a
  match a with
  | ⟨0, _⟩ => rfl
  | ⟨1, _⟩ => exact Fin.ext (show (j 0).val = 0 from Nat.lt_one_iff.mp (j 0).isLt)

/-- The grid point's last step at the cell's one index: what the cell held plus the sum of the 256 row terms. -/
theorem pay23_apply (v31 v32 v33 v36 : FVec Ideal S256x1 .f32) (v54 : FVec Ideal S1x1 .f32) :
    (k0_pay23 (F := Ideal) v31 v32 v33 v36 v54 (ix2 0 0) : EReal)
      = (v54 (ix2 0 0) : EReal)
          + ∑ p : Fin 256, rowTerm (v31 (ix2 p 0)) (v32 (ix2 p 0)) (v33 (ix2 p 0)) (v36 (ix2 p 0)) := by
  unfold k0_pay23
  dsimp only
  refine (addf_apply _ _ (ix2 0 0)).trans ?_
  refine congrArg₂ (· + ·) ?_ ?_
  · exact congrFun (shapeCast_self v54 shapeCasts_S1x1_S1x1) (ix2 0 0)
  · refine (shapeCast_a_1a_apply _ shapeCasts_S1_S1x1 (0 : Fin 1) (0 : Fin 1)).trans ?_
    refine (Ideal.multiReduction_add_single _ 0x00000000#32 reduces_S256x1_S1 _ _ (ix1 (0 : Fin 1))).trans ?_
    refine Finset.sum_congr rfl fun p _ => ?_
    exact (congrArg _ (lift_row (ix1 (0 : Fin 1)) p)).trans rfl

/-- The tile's term adds to the cell the tile's rows' contributions. -/
theorem tileOut_eq (x0 : Vec Ideal S256x128 .f32) (x1 : Vec Ideal S256x1 .i32) (x2 : Vec Ideal S8192x128 .f32)
    (x3 : Vec Ideal S1x8192 .i32) (prev : Vec Ideal S1x1 .f32) :
    Cert.KernelIdeal.Passes.tileOut (F := Ideal) x0 x1 x2 x3 prev
      = fun _ => (prev (ix2 0 0) : EReal)
          + ∑ p : Fin 256, Cert.Proof.Msl.rowLoss (fun d => x0 (ix2 p d)) (x1 (ix2 p 0)) (fun n d => x2 (ix2 n d)) (fun n => x3 (ix2 0 n)) := by
  funext y
  obtain ⟨u, w, rfl⟩ : ∃ (u w : Fin 1), y = ix2 u w := ⟨y 0, y 1, eq_ix2 y⟩
  obtain rfl : u = 0 := Subsingleton.elim _ _
  obtain rfl : w = 0 := Subsingleton.elim _ _
  unfold Cert.KernelIdeal.Passes.tileOut
  refine (pay23_apply _ _ _ _ prev).trans ?_
  refine congrArg (fun s => (prev (ix2 0 0) : EReal) + s) (Finset.sum_congr rfl fun p _ => ?_)
  have h1 := Pass1Math.pass1_eq x0 x1 x2 x3
  have h2 := Pass2Math.pass2_eq x0 x1 x2 x3
    (Cert.KernelIdeal.Passes.pass1 (F := Ideal) x0 x1 x2 x3 k0_t1_loop.trips).1
    (Cert.KernelIdeal.Passes.pass1 (F := Ideal) x0 x1 x2 x3 k0_t1_loop.trips).2
    (fun p => (h1 p).1) (fun p => (h1 p).2) p
  show rowTerm _ _ _ _ = _
  rw [h2.1, h2.2.1, h2.2.2.1, h2.2.2.2]
  rfl

end Cert.KernelIdeal.TileMath

end
-- ==== Proof.KernelRun.lean ====
/-
  The idealized kernel's run: every execution ends with the result buffer at the loss of the four argument arrays,
  the arguments unchanged. The 32 grid points add their tiles' sums into one cell, the first after zeroing it; the
  cell is then reshaped to a scalar and divided by the number of rows.
-/
import proofs.«147075_j1769526526575_1_alg».proof.Proof.TileMath

noncomputable section

open scoped BigOperators

namespace Cert.KernelIdeal.Run

open Cert.KernelIdeal Cert.KernelIdeal.Gen Idealize.ShloMosaic Idealize.ShloMosaic.TcCoe Idealize.SL.Sem
  Idealize.ShloMosaic.ValueIdx

open Idealize.ShloMosaic.Pipeline (Dat)

variable (m : (ℓ : Loc nD τ sig) → Buf (Elt Ideal) ℓ)

/-! ## The four blocks of a grid point, over their literal shapes -/

/-- The tile of the first matrix that grid point `t` holds: 256 of its rows. -/
abbrev xblk (c : Dev nD) (t : Fin cfg0.N) : Vec Ideal S256x128 .f32 := iblk m c 0 t
/-- The tile's labels, as a 256-entry column. -/
abbrev lblk (c : Dev nD) (t : Fin cfg0.N) : Vec Ideal S256x1 .i32 := iblk m c 1 t
/-- The second matrix, whole at every grid point. -/
abbrev yblk (c : Dev nD) (t : Fin cfg0.N) : Vec Ideal S8192x128 .f32 := iblk m c 2 t
/-- Its labels, as an 8192-entry row. -/
abbrev zblk (c : Dev nD) (t : Fin cfg0.N) : Vec Ideal S1x8192 .i32 := iblk m c 3 t

/-- Row `p` of tile `t`, as a row of the whole matrix. -/
abbrev rowAt (t : ℕ) (ht : t < 32) (p : Fin 256) : Fin 8192 := ⟨256 * t + p.val, by have := p.isLt; omega⟩

/-- The block indices of the four input windows at every grid point: the first matrix and its labels move with the
    point along the rows, the second matrix and its labels stay. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0))

/-- The label column the region finds is the first label vector, entry `b` at `(b, 0)`. -/
theorem V_v0 (c : Dev nD) :
    (V m c main_v0 : S8192x1.Idx → BitVec 32)
      = shapeCast S8192x1 (m ((c.tc : Thread nD τ).loc main_arg1)) shapeCasts_S8192_S8192x1 := by
  show StableHlo.after hostOps0 (fun b => m (c, b)) (Proc.devRef .tc main_v0) = _
  after_results
  rfl

/-- The label row the region finds is the second label vector, entry `n` at `(0, n)`. -/
theorem V_v1 (c : Dev nD) :
    (V m c main_v1 : S1x8192.Idx → BitVec 32)
      = shapeCast S1x8192 (m ((c.tc : Thread nD τ).loc main_arg3)) shapeCasts_S8192_S1x8192 := by
  show StableHlo.after hostOps0 (fun b => m (c, b)) (Proc.devRef .tc main_v1) = _
  after_results
  rfl

/-- Entry `(p, d)` of the tile at point `t` is entry `(256 t + p, d)` of the first matrix. -/
theorem xblk_apply (c : Dev nD) (t : Fin cfg0.N) (ht : t.val < 32) (p : Fin 256) (d : Fin 128) :
    xblk m c t (ix2 p d) = m ((c.tc : Thread nD τ).loc main_arg0) (ix2 (rowAt t.val ht p) d) := by
  show V m c main_arg0 (((cfg0.win 0).blk t).view.emb (ix2 p d)) = _
  rw [V_main_arg0]
  congr 1
  funext a
  apply Fin.ext
  match a with
  | ⟨0, _⟩ => show win0_0.index t 0 * 256 + 1 * p.val = 256 * t.val + p.val; rw [(idx_facts t).1.1]; omega
  | ⟨1, _⟩ => show win0_0.index t 1 * 128 + 1 * d.val = d.val; rw [(idx_facts t).1.2]; omega

/-- Entry `(p, 0)` of the tile's label column at point `t` is entry `256 t + p` of the first label vector. -/
theorem lblk_apply (c : Dev nD) (t : Fin cfg0.N) (ht : t.val < 32) (p : Fin 256) :
    lblk m c t (ix2 p (0 : Fin 1)) = m ((c.tc : Thread nD τ).loc main_arg1) (ix1 (rowAt t.val ht p)) := by
  show V m c main_v0 (((cfg0.win 1).blk t).view.emb (ix2 p (0 : Fin 1))) = _
  rw [V_v0]
  refine shapeCast_apply _ _ _ (ix1 (rowAt t.val ht p)) ?_
  rw [Shape.rowMajor_val_one, Shape.rowMajor_val_two]
  show 256 * t.val + p.val = (win0_1.index t 0 * 256 + 1 * p.val) * 1 + (win0_1.index t 1 * 1 + 1 * 0)
  rw [(idx_facts t).2.1.1, (idx_facts t).2.1.2]
  omega

/-- The block of the second matrix at any point is the matrix. -/
theorem yblk_apply (c : Dev nD) (t : Fin cfg0.N) (n : Fin 8192) (d : Fin 128) :
    yblk m c t (ix2 n d) = m ((c.tc : Thread nD τ).loc main_arg2) (ix2 n d) := by
  show V m c main_arg2 (((cfg0.win 2).blk t).view.emb (ix2 n d)) = _
  rw [V_main_arg2]
  congr 1
  funext a
  apply Fin.ext
  match a with
  | ⟨0, _⟩ => show win0_2.index t 0 * 8192 + 1 * n.val = n.val; rw [(idx_facts t).2.2.1.1]; omega
  | ⟨1, _⟩ => show win0_2.index t 1 * 128 + 1 * d.val = d.val; rw [(idx_facts t).2.2.1.2]; omega

/-- Entry `(0, n)` of the label row at any point is entry `n` of the second label vector. -/
theorem zblk_apply (c : Dev nD) (t : Fin cfg0.N) (n : Fin 8192) :
    zblk m c t (ix2 (0 : Fin 1) n) = m ((c.tc : Thread nD τ).loc main_arg3) (ix1 n) := by
  show V m c main_v1 (((cfg0.win 3).blk t).view.emb (ix2 (0 : Fin 1) n)) = _
  rw [V_v1]
  refine shapeCast_apply _ _ _ (ix1 n) ?_
  rw [Shape.rowMajor_val_one, Shape.rowMajor_val_two]
  show n.val = (win0_3.index t 0 * 1 + 1 * 0) * 8192 + (win0_3.index t 1 * 8192 + 1 * n.val)
  rw [(idx_facts t).2.2.2.1, (idx_facts t).2.2.2.2]
  omega

/-! ## The output cell, point by point -/

/-- The first matrix as the loss reads it, row by row. -/
abbrev col (c : Dev nD) : Fin 8192 → Fin 128 → EReal := fun b d => m ((c.tc : Thread nD τ).loc main_arg0) (ix2 b d)
/-- Its labels. -/
abbrev colLbl (c : Dev nD) : Fin 8192 → BitVec 32 := fun b => m ((c.tc : Thread nD τ).loc main_arg1) (ix1 b)
/-- The second matrix, row by row. -/
abbrev row (c : Dev nD) : Fin 8192 → Fin 128 → EReal := fun n d => m ((c.tc : Thread nD τ).loc main_arg2) (ix2 n d)
/-- Its labels. -/
abbrev rowLbl (c : Dev nD) : Fin 8192 → BitVec 32 := fun n => m ((c.tc : Thread nD τ).loc main_arg3) (ix1 n)

/-- The sum of the contributions of tile `t`'s 256 rows (zero past the 32 tiles, so that it is a function of a
    natural number and sums over a range). -/
def tileSum (c : Dev nD) (t : ℕ) : EReal :=
  if ht : t < 32 then
    ∑ p : Fin 256, Cert.Proof.Msl.rowLoss (col m c (rowAt t ht p)) (colLbl m c (rowAt t ht p)) (row m c) (rowLbl m c)
  else 0

/-- One grid point's term over the point's own blocks: it adds the tile's sum to what the cell held. -/
theorem tile_eq (c : Dev nD) (t : Fin cfg0.N) (ht : t.val < 32) (prev : Vec Ideal S1x1 .f32) :
    Cert.KernelIdeal.Passes.tileOut (F := Ideal) (xblk m c t) (lblk m c t) (yblk m c t) (zblk m c t) prev
      = fun _ => (prev (ix2 0 0) : EReal) + tileSum m c t.val := by
  refine (Cert.KernelIdeal.TileMath.tileOut_eq (xblk m c t) (lblk m c t) (yblk m c t) (zblk m c t) prev).trans ?_
  funext _
  refine congrArg (fun s => (prev (ix2 0 0) : EReal) + s) ?_
  unfold tileSum
  rw [dif_pos ht]
  refine Finset.sum_congr rfl fun p _ => ?_
  have e0 : (fun d => xblk m c t (ix2 p d)) = col m c (rowAt t.val ht p) := funext fun d => xblk_apply m c t ht p d
  have e1 : lblk m c t (ix2 p (0 : Fin 1)) = colLbl m c (rowAt t.val ht p) := lblk_apply m c t ht p
  have e2 : (fun n d => yblk m c t (ix2 n d)) = row m c := funext fun n => funext fun d => yblk_apply m c t n d
  have e3 : (fun n => zblk m c t (ix2 (0 : Fin 1) n)) = rowLbl m c := funext fun n => zblk_apply m c t n
  rw [e0, e1, e2, e3]

/-- The cell the first grid point zeroes holds zero. -/
theorem zero_cell : (k0_pay22 (F := Ideal) (ix2 0 0) : EReal) = 0 := Ideal.ofBits_zero_f32

/-- After grid point `n` the output cell holds the sum of the tile sums of the points up to `n`: the first point zeroes
    the cell and adds its tile's sum, every later one adds its own to what the point before left. -/
theorem cell_eq (c : Dev nD) : ∀ (n : ℕ) (h : n < cfg0.N),
    outsAt0 m c n h = fun _ => ∑ t ∈ Finset.range (n + 1), tileSum m c t
  | 0, h => by
    have hN : cfg0.N = 32 := N_0
    refine (outsAt0_A m c ⟨0, h⟩ rfl).trans ?_
    refine (Cert.KernelIdeal.Passes.caseA (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, h⟩).mpr rfl) (xblk m c ⟨0, h⟩) (lblk m c ⟨0, h⟩) (yblk m c ⟨0, h⟩) (zblk m c ⟨0, h⟩)).trans ?_
    refine (tile_eq m c ⟨0, h⟩ (by show (0 : ℕ) < 32; omega) (k0_pay22 (F := Ideal))).trans ?_
    funext _
    show (k0_pay22 (F := Ideal) (ix2 0 0) : EReal) + tileSum m c 0 = ∑ t ∈ Finset.range 1, tileSum m c t
    rw [Finset.sum_range_one, zero_cell, zero_add]
  | n + 1, h => by
    have hN : cfg0.N = 32 := N_0
    have hB : ¬(⟨n + 1, h⟩ : Fin cfg0.N).val % 32 = 0 := by dsimp only; omega
    refine (outsAt0_B m c ⟨n + 1, h⟩ hB).trans ?_
    refine (Cert.KernelIdeal.Passes.caseB (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h' => hB ((hcond0_0 ⟨n + 1, h⟩).mp h')) (xblk m c ⟨n + 1, h⟩) (lblk m c ⟨n + 1, h⟩) (yblk m c ⟨n + 1, h⟩) (zblk m c ⟨n + 1, h⟩) (outsAt0 m c ((⟨n + 1, h⟩ : Fin cfg0.N).val - 1) (Nat.lt_of_le_of_lt (Nat.sub_le _ _) (⟨n + 1, h⟩ : Fin cfg0.N).isLt))).trans ?_
    refine (tile_eq m c ⟨n + 1, h⟩ (by dsimp only; omega) _).trans ?_
    funext _
    show (outsAt0 m c n (Nat.lt_of_succ_lt h) (ix2 0 0) : EReal) + tileSum m c (n + 1) = ∑ t ∈ Finset.range (n + 1 + 1), tileSum m c t
    rw [cell_eq c n (Nat.lt_of_succ_lt h), Finset.sum_range_succ (fun t => tileSum m c t) (n + 1)]

/-! ## The single write-back -/

/-- The sum of every row's contribution: the loss before its division by the number of rows. -/
abbrev total (c : Dev nD) : EReal :=
  ∑ b : Fin 8192, Cert.Proof.Msl.rowLoss (col m c b) (colLbl m c b) (row m c) (rowLbl m c)

/-- The 32 tile sums make up the sum over all 8192 rows: the rows are 32 tiles of 256. -/
theorem range_total (c : Dev nD) : ∑ t ∈ Finset.range 32, tileSum m c t = total m c := by
  refine (Finset.sum_range fun t => tileSum m c t).trans ?_
  refine ((Cert.Proof.Msl.sum_tiles fun b =>
    Cert.Proof.Msl.rowLoss (col m c b) (colLbl m c b) (row m c) (rowLbl m c)).trans ?_).symm
  refine Finset.sum_congr rfl fun t _ => ?_
  unfold tileSum
  rw [dif_pos t.isLt]
  rfl

/-- The last grid point. -/
abbrev tLast : Fin cfg0.N := ⟨31, by rw [show cfg0.N = 32 from N_0]; decide⟩

/-- The one write-back, at the last point, writes the cell holding the sum over all rows. -/
theorem flushed_eq (c : Dev nD) (t : Fin cfg0.N) (hf : (cfg0.win 4).flush t = true) :
    (dats m 0 c).flushed 4 t = ((cfg0.win 4).blk t).view.read (Elt Ideal) (fun _ => total m c) := by
  have hN : cfg0.N = 32 := N_0
  have h31 : t.val = 31 := by have := (flush0_4 t).mp hf; have := t.isLt; omega
  obtain rfl : t = tLast := Fin.ext h31
  show (cfg0.win 4).cut (grid0.coords tLast) ((dats m 0 c).after 4 tLast) = _
  rw [after0_4, cell_eq m c tLast.val tLast.isLt]
  show (cfg0.win 4).cut (grid0.coords tLast) (fun _ => ∑ t ∈ Finset.range 32, tileSum m c t) = _
  rw [range_total]
  rfl

/-- So the result array of the region ends holding the sum over all rows: its one cell is the block the last point
    writes back. -/
theorem final (c : Dev nD) : (dats m 0 c).arrAt 4 cfg0.N = fun _ => total m c :=
  (dats m 0 c).arrAt_eq_of_cover 4 (fun _ => total m c) (flushed_eq m c) fun i =>
    ⟨tLast, (flush0_4 tLast).mpr rfl, by
      show i ∈ ((View.whole main_v2).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 1 from by decide +kernel]
        omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 1 from by decide +kernel]
        omega⟩

/-! ## The host tail -/

/-- After the region the cell is reshaped to a scalar and divided by the number of rows, which is the loss's own
    last step. -/
theorem tail_eq (c : Dev nD) :
    Pipeline.afterTail₀ cfgs (dats m) 0 (V0 m) [hostOps1] c main_v4
      = fun _ => Cert.Proof.Msl.lossOf (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v2) = fun _ => total m c :=
    (Pipeline.withArrays_arr spec0 launch0.win.arr_inj c (V0 m c) _ 4).trans (final m c)
  rw [e]
  funext j
  show Ideal.div (total m c) Cert.Proof.Msl.cRows = _
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v4)
          = (fun _ => Cert.Proof.Msl.lossOf (m ((c.tc : Thread Cert.KernelIdeal.nD Cert.KernelIdeal.τ).loc Cert.KernelIdeal.main_arg0)) (m ((c.tc : Thread Cert.KernelIdeal.nD Cert.KernelIdeal.τ).loc Cert.KernelIdeal.main_arg1))
              (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run (defs (F := Ideal)) _ _).mono (fun r h c => ⟨?_, ?_, ?_, ?_, ?_⟩) (run_main m ρ)
  · exact ((h c).2 main_v4 (Pipeline.mem_restRefs_of main_v4 (by decide) (by decide))).trans (tail_eq m c)
  · exact ((h c).1 0).trans (((dats m 0 c).arrAt_in 0 rfl _).trans ((A_eq m c 0).trans (V_main_arg0 m c)))
  · exact ((h c).2 main_arg1 (Pipeline.mem_restRefs_of main_arg1 (by decide) (by decide))).trans
      (W_main_arg1 m (dats m) c)
  · exact ((h c).1 2).trans (((dats m 0 c).arrAt_in 2 rfl _).trans ((A_eq m c 2).trans (V_main_arg2 m c)))
  · exact ((h c).2 main_arg3 (Pipeline.mem_restRefs_of main_arg3 (by decide) (by decide))).trans
      (W_main_arg3 m (dats m) c)

end Cert.KernelIdeal.Run

end
-- ==== Proof.RefRun.lean ====
/-
  The idealized reference's run: every execution ends with the result buffer at the loss of the four argument
  arrays, the arguments unchanged. The reference forms the whole similarity matrix, reduces each row over all its
  columns at once, and marks an unmined pair by an exponent of `-∞` where the kernel selects a zero term.
-/
import proofs.«147075_j1769526526575_1_alg».proof.Proof.Gen.ReferenceIdeal.Read
import proofs.«147075_j1769526526575_1_alg».proof.Proof.Spec

noncomputable section

open scoped BigOperators

namespace Cert.ReferenceIdeal.RefRun

open Cert.ReferenceIdeal Idealize.ShloMosaic Idealize.ShloMosaic.TcCoe Idealize.SL.Sem Idealize.ShloMosaic.ValueIdx
open Cert.ReferenceIdeal.Read Cert.ReferenceIdeal.Gen Cert.Proof

/-! ## A reduction along the column axis, row by row -/

/-- The row reductions drop the column axis. -/
theorem reduces_d1 : S8192x8192.Reduces [1] S8192 := by decide

/-- Row `b` with column `k` put back on the reduced axis. -/
theorem lift_d1 (b : Fin 8192) (k : Fin 8192) : reduces_d1.lift (ix1 b) k = ix2 b k :=
  funext fun a => Fin.ext (by match a with | ⟨0, _⟩ => rfl | ⟨1, _⟩ => rfl)

/-- A minimum over the columns of row `b`, from the initial value. -/
theorem reduce_min_row (x : FVec Ideal S8192x8192 .f32) (init : FVec Ideal S_ .f32) (b : Fin 8192) :
    Host.reduce FloatOps.minimumf x init reducesTo_S8192x8192_S8192_d1 h_S_ (ix1 b)
      = (Finset.univ : Finset (Fin 8192)).fold min (init (Shape.Idx.first h_S_)) (fun k => x (ix2 b k)) := by
  refine (Host.reduce_eq_fold_single FloatOps.minimumf x init reducesTo_S8192x8192_S8192_d1 reduces_d1 h_S_ (ix1 b)).trans ?_
  exact Finset.fold_congr fun k _ => congrArg x (lift_d1 b k)

/-- A maximum over the columns of row `b`, from the initial value. -/
theorem reduce_max_row (x : FVec Ideal S8192x8192 .f32) (init : FVec Ideal S_ .f32) (b : Fin 8192) :
    Host.reduce FloatOps.maximumf x init reducesTo_S8192x8192_S8192_d1 h_S_ (ix1 b)
      = (Finset.univ : Finset (Fin 8192)).fold max (init (Shape.Idx.first h_S_)) (fun k => x (ix2 b k)) := by
  refine (Host.reduce_eq_fold_single FloatOps.maximumf x init reducesTo_S8192x8192_S8192_d1 reduces_d1 h_S_ (ix1 b)).trans ?_
  exact Finset.fold_congr fun k _ => congrArg x (lift_d1 b k)

/-- A disjunction over the columns of row `b`, from the initial value. -/
theorem reduce_or_row (x : IVec S8192x8192 1) (init : IVec S_ 1) (b : Fin 8192) :
    Host.reduce IntOp.ori x init reducesTo_S8192x8192_S8192_d1 h_S_ (ix1 b)
      = (Finset.univ : Finset (Fin 8192)).fold IntOp.ori (init (Shape.Idx.first h_S_)) (fun k => x (ix2 b k)) := by
  refine (Host.reduce_eq_fold_single IntOp.ori x init reducesTo_S8192x8192_S8192_d1 reduces_d1 h_S_ (ix1 b)).trans ?_
  exact Finset.fold_congr fun k _ => congrArg x (lift_d1 b k)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Words: one-bit masks -/

/-- On one bit, the complement is the exclusive or with `1`. -/
theorem not_eq_xor_one (x : BitVec 1) : ~~~x = IntOp.xori x 1#1 := by
  rcases BitVec.eq_zero_or_eq_one x with h | h <;> subst h <;> decide
theorem ori_zero_left (x : BitVec 1) : IntOp.ori 0#1 x = x := by
  rcases BitVec.eq_zero_or_eq_one x with h | h <;> subst h <;> decide
theorem ori_one_left (x : BitVec 1) : IntOp.ori 1#1 x = 1#1 := by
  rcases BitVec.eq_zero_or_eq_one x with h | h <;> subst h <;> decide
theorem andi_comm1 (x y : BitVec 1) : IntOp.andi x y = IntOp.andi y x := BitVec.and_comm x y

/-- The clear bit counts as the number 0 … -/
theorem ind_zero : Msl.ind 0#1 = 0 := by
  have h : ((0#1 : BitVec 1).setWidth 32).toInt = 0 := by decide
  show ((((0#1 : BitVec 1).setWidth 32).toInt : ℝ) : EReal) = 0
  rw [h]; simp
/-- … and the set bit as the number 1. -/
theorem ind_one : Msl.ind 1#1 = 1 := by
  have h : ((1#1 : BitVec 1).setWidth 32).toInt = 1 := by decide
  show ((((1#1 : BitVec 1).setWidth 32).toInt : ℝ) : EReal) = 1
  rw [h]; simp

/-- A finite family of one-bit masks has a positive count exactly when some mask is set: the comparison of the
    count with zero is the disjunction of the masks. -/
theorem cmp_count_eq_fold {N : Nat} (m : Fin N → BitVec 1) :
    Ideal.cmp .ogt (∑ n, Msl.ind (m n)) 0 = (Finset.univ : Finset (Fin N)).fold IntOp.ori 0#1 m := by
  have key : ∀ s : Finset (Fin N), 0 ≤ ∑ n ∈ s, Msl.ind (m n) ∧
      Ideal.cmp .ogt (∑ n ∈ s, Msl.ind (m n)) 0 = s.fold IntOp.ori 0#1 m := by
    intro s
    induction s using Finset.induction_on with
    | empty =>
      refine ⟨by rw [Finset.sum_empty], ?_⟩
      rw [Finset.sum_empty, Finset.fold_empty]
      show BitVec.ofBool (decide ((0 : EReal) < 0)) = 0#1
      rw [decide_eq_false (lt_irrefl _)]; rfl
    | insert a s ha ih =>
      rw [Finset.sum_insert ha, Finset.fold_insert ha]
      rcases BitVec.eq_zero_or_eq_one (m a) with h | h
      · rw [h, ind_zero, zero_add, ori_zero_left]; exact ih
      · rw [h, ind_one, ori_one_left]
        have hpos : (0 : EReal) < 1 + ∑ n ∈ s, Msl.ind (m n) := add_pos_of_pos_of_nonneg zero_lt_one ih.1
        refine ⟨hpos.le, ?_⟩
        show BitVec.ofBool (decide ((0 : EReal) < 1 + ∑ n ∈ s, Msl.ind (m n))) = 1#1
        rw [decide_eq_true hpos]; rfl
  exact (key Finset.univ).2

/-- The exponential of a masked exponent with filler `-∞` is the masked exponential with filler zero. -/
theorem exp_masked (m : BitVec 1) (x : EReal) :
    Ideal.exp (Scalar.select m x Msl.cNegInf) = Msl.masked m (Ideal.exp x) Msl.cZero := by
  have hbot : Msl.cNegInf = ⊥ := by simp [Ideal.ofBits, Ideal.ieee]
  unfold Msl.masked
  rcases BitVec.eq_zero_or_eq_one m with h | h
  · rw [h, select_zero, select_zero, hbot, Msl.cZero_eq]; rfl
  · rw [h, select_one, select_one]

/-! ## The composed index functions of the stages are the coordinate constructors -/

theorem lidx_v1 (b n : Fin 8192) (k : Fin 128) : lidx_main_v1 (ix2 b n) k = ix2 b k :=
  funext fun a => Fin.ext (by match a with | ⟨0, _⟩ => rfl | ⟨1, _⟩ => rfl)
theorem ridx_v1 (b n : Fin 8192) (k : Fin 128) : idx_main_v0 (ridx_main_v1 (ix2 b n) k) = ix2 n k :=
  funext fun a => Fin.ext (by match a with | ⟨0, _⟩ => rfl | ⟨1, _⟩ => rfl)
theorem idx_v4 (b n : Fin 8192) : idx_main_v2 (idx_main_v4 (ix2 b n)) = ix1 n :=
  funext fun a => Fin.ext (by match a with | ⟨0, _⟩ => rfl)
theorem idx_v5 (b n : Fin 8192) : idx_main_v3 (idx_main_v5 (ix2 b n)) = ix1 b :=
  funext fun a => Fin.ext (by match a with | ⟨0, _⟩ => rfl)
theorem idx_v19 (b n : Fin 8192) : idx_main_v13 (idx_main_v19 (ix2 b n)) = ix1 b :=
  funext fun a => Fin.ext (by match a with | ⟨0, _⟩ => rfl)
theorem idx_v24 (b n : Fin 8192) : idx_main_v16 (idx_main_v24 (ix2 b n)) = ix1 b :=
  funext fun a => Fin.ext (by match a with | ⟨0, _⟩ => rfl)
theorem idx_v36 (b k : Fin 8192) : idx_main_v36 (ix1 b) k = ix2 b k :=
  funext fun a => Fin.ext (by match a with | ⟨0, _⟩ => rfl | ⟨1, _⟩ => rfl)
theorem idx_v43 (b k : Fin 8192) : idx_main_v43 (ix1 b) k = ix2 b k :=
  funext fun a => Fin.ext (by match a with | ⟨0, _⟩ => rfl | ⟨1, _⟩ => rfl)

section Stages

variable (a0 : (⟨S8192x128, .f32⟩ : BufTy).Contents (Elt Ideal)) (a1 : (⟨S8192, .i32⟩ : BufTy).Contents (Elt Ideal))
  (a2 : (⟨S8192x128, .f32⟩ : BufTy).Contents (Elt Ideal)) (a3 : (⟨S8192, .i32⟩ : BufTy).Contents (Elt Ideal))

/-- Row `b` of the first matrix. -/
abbrev u (b : Fin 8192) : Fin 128 → EReal := fun d => a0 (ix2 b d)
/-- The label of row `b` of the first matrix. -/
abbrev lab (b : Fin 8192) : BitVec 32 := a1 (ix1 b)
/-- The second matrix by rows. -/
abbrev row : Fin 8192 → Fin 128 → EReal := fun n d => a2 (ix2 n d)
/-- The second matrix's labels. -/
abbrev tr : Fin 8192 → BitVec 32 := fun n => a3 (ix1 n)

/-- The product matrix at `(b, n)` is the inner product of the two rows. -/
theorem v1_at (b n : Fin 8192) :
    val_main_v1 (F := Ideal) a0 a2 (ix2 b n) = Msl.sim (u a0 b) (row a2) n := by
  rw [val_main_v1_apply]
  unfold Msl.sim
  refine Finset.sum_congr rfl fun k _ => ?_
  rw [val_main_v0_apply, lidx_v1, ridx_v1]

/-- The label comparison at `(b, n)`. -/
theorem v6_at (b n : Fin 8192) :
    val_main_v6 (F := Ideal) a1 a3 (ix2 b n) = Msl.same (lab a1 b) (tr a3) n := by
  rw [val_main_v6_apply, val_main_v4_apply, val_main_v2_apply, val_main_v5_apply, val_main_v3_apply, idx_v4, idx_v5]
  rfl

/-- A positive pair at `(b, n)`. -/
theorem v9_at (b n : Fin 8192) :
    val_main_v9 (F := Ideal) a0 a1 a2 a3 (ix2 b n) = Msl.pos (u a0 b) (lab a1 b) (row a2) (tr a3) n := by
  rw [val_main_v9_apply, val_main_v8_apply, v6_at, v1_at, val_main_v7_apply, val_main_cst_apply]
  rfl

/-- A negative pair at `(b, n)`: the complement of the label comparison. -/
theorem v10_at (b n : Fin 8192) :
    val_main_v10 (F := Ideal) a1 a3 (ix2 b n) = Msl.neg (lab a1 b) (tr a3) n := by
  rw [val_main_v10_apply, v6_at]
  exact not_eq_xor_one _

/-- The similarity kept on the positive pairs, `+∞` elsewhere. -/
theorem v11_at (b n : Fin 8192) :
    val_main_v11 (F := Ideal) a0 a1 a2 a3 (ix2 b n)
      = Msl.masked (Msl.pos (u a0 b) (lab a1 b) (row a2) (tr a3) n) (Msl.sim (u a0 b) (row a2) n) Msl.cInf := by
  rw [val_main_v11_apply, v9_at, v1_at, val_main_call0_v1_apply, val_main_call0_v0_apply, val_main_cst_0_apply]
  rfl

/-- The similarity kept on the negative pairs, `-∞` elsewhere. -/
theorem v14_at (b n : Fin 8192) :
    val_main_v14 (F := Ideal) a0 a1 a2 a3 (ix2 b n)
      = Msl.masked (Msl.neg (lab a1 b) (tr a3) n) (Msl.sim (u a0 b) (row a2) n) Msl.cNegInf := by
  rw [val_main_v14_apply, v10_at, v1_at, val_main_call1_v1_apply, val_main_call1_v0_apply, val_main_cst_2_apply]
  rfl

/-- The row's least positive similarity. -/
theorem v12_at (b : Fin 8192) :
    val_main_v12 (F := Ideal) a0 a1 a2 a3 (ix1 b) = Msl.minPos (u a0 b) (lab a1 b) (row a2) (tr a3) := by
  unfold val_main_v12
  refine (reduce_min_row (val_main_v11 (F := Ideal) a0 a1 a2 a3) (val_main_cst_1 (F := Ideal)) b).trans ?_
  rw [val_main_cst_1_apply]
  exact Finset.fold_congr fun n _ => v11_at a0 a1 a2 a3 b n

/-- The row's greatest negative similarity. -/
theorem v15_at (b : Fin 8192) :
    val_main_v15 (F := Ideal) a0 a1 a2 a3 (ix1 b) = Msl.maxNeg (u a0 b) (lab a1 b) (row a2) (tr a3) := by
  unfold val_main_v15
  refine (reduce_max_row (val_main_v14 (F := Ideal) a0 a1 a2 a3) (val_main_cst_3 (F := Ideal)) b).trans ?_
  rw [val_main_cst_3_apply]
  exact Finset.fold_congr fun n _ => v14_at a0 a1 a2 a3 b n

/-- A mined negative pair at `(b, n)`. -/
theorem v21_at (b n : Fin 8192) :
    val_main_v21 (F := Ideal) a0 a1 a2 a3 (ix2 b n) = Msl.negM (u a0 b) (lab a1 b) (row a2) (tr a3) n := by
  rw [val_main_v21_apply, v10_at, val_main_v20_apply, val_main_v18_apply, v1_at, val_main_v17_apply, val_main_cst_4_apply,
    val_main_v19_apply, val_main_v13_apply, idx_v19, v12_at]
  rfl

/-- A mined positive pair at `(b, n)`. -/
theorem v26_at (b n : Fin 8192) :
    val_main_v26 (F := Ideal) a0 a1 a2 a3 (ix2 b n) = Msl.posM (u a0 b) (lab a1 b) (row a2) (tr a3) n := by
  rw [val_main_v26_apply, v9_at, val_main_v25_apply, val_main_v23_apply, v1_at, val_main_v22_apply, val_main_cst_5_apply,
    val_main_v24_apply, val_main_v16_apply, idx_v24, v15_at]
  rfl

/-- Whether the row has a mined negative pair. -/
theorem v27_at (b : Fin 8192) :
    val_main_v27 (F := Ideal) a0 a1 a2 a3 (ix1 b)
      = (Finset.univ : Finset (Fin 8192)).fold IntOp.ori 0#1 fun n => Msl.negM (u a0 b) (lab a1 b) (row a2) (tr a3) n := by
  unfold val_main_v27
  refine (reduce_or_row (val_main_v21 (F := Ideal) a0 a1 a2 a3) (val_main_c (F := Ideal)) b).trans ?_
  rw [val_main_c_apply]
  exact Finset.fold_congr fun n _ => v21_at a0 a1 a2 a3 b n

/-- Whether the row has a mined positive pair. -/
theorem v28_at (b : Fin 8192) :
    val_main_v28 (F := Ideal) a0 a1 a2 a3 (ix1 b)
      = (Finset.univ : Finset (Fin 8192)).fold IntOp.ori 0#1 fun n => Msl.posM (u a0 b) (lab a1 b) (row a2) (tr a3) n := by
  unfold val_main_v28
  refine (reduce_or_row (val_main_v26 (F := Ideal) a0 a1 a2 a3) (val_main_c_6 (F := Ideal)) b).trans ?_
  rw [val_main_c_6_apply]
  exact Finset.fold_congr fun n _ => v26_at a0 a1 a2 a3 b n

/-- The row has a mined pair of each kind: each disjunction is the count's comparison with zero. -/
theorem v29_at (b : Fin 8192) :
    val_main_v29 (F := Ideal) a0 a1 a2 a3 (ix1 b) = Msl.valid (u a0 b) (lab a1 b) (row a2) (tr a3) := by
  rw [val_main_v29_apply, v27_at, v28_at]
  unfold Msl.valid Msl.posCnt Msl.negCnt
  rw [Msl.cZero_eq, cmp_count_eq_fold, cmp_count_eq_fold]
  exact andi_comm1 _ _

/-- A mined positive pair's term: the exponential of the exponent masked by `-∞`. -/
theorem v35_at (b n : Fin 8192) :
    val_main_v35 (F := Ideal) a0 a1 a2 a3 (ix2 b n) = Msl.posExp (u a0 b) (lab a1 b) (row a2) (tr a3) n := by
  rw [val_main_v35_apply, val_main_v34_apply, v26_at, val_main_v33_apply, val_main_v32_apply, val_main_cst_8_apply,
    val_main_v31_apply, v1_at, val_main_v30_apply, val_main_cst_7_apply, val_main_call2_v1_apply, val_main_call2_v0_apply,
    val_main_cst_9_apply]
  exact exp_masked _ _

/-- A mined negative pair's term. -/
theorem v42_at (b n : Fin 8192) :
    val_main_v42 (F := Ideal) a0 a1 a2 a3 (ix2 b n) = Msl.negExp (u a0 b) (lab a1 b) (row a2) (tr a3) n := by
  rw [val_main_v42_apply, val_main_v41_apply, v21_at, val_main_v40_apply, val_main_v39_apply, val_main_cst_12_apply,
    val_main_v38_apply, v1_at, val_main_v37_apply, val_main_cst_11_apply, val_main_call3_v1_apply, val_main_call3_v0_apply,
    val_main_cst_13_apply]
  exact exp_masked _ _

/-- The row's sum over its mined positive pairs. -/
theorem v36_at (b : Fin 8192) :
    val_main_v36 (F := Ideal) a0 a1 a2 a3 (ix1 b) = Msl.posSum (u a0 b) (lab a1 b) (row a2) (tr a3) := by
  rw [val_main_v36_apply, val_main_cst_10_apply, Ideal.ofBits_def, Ideal.ofBits_zero_f32, zero_add]
  unfold Msl.posSum
  refine Finset.sum_congr rfl fun k _ => ?_
  rw [idx_v36, v35_at]

/-- The row's sum over its mined negative pairs. -/
theorem v43_at (b : Fin 8192) :
    val_main_v43 (F := Ideal) a0 a1 a2 a3 (ix1 b) = Msl.negSum (u a0 b) (lab a1 b) (row a2) (tr a3) := by
  rw [val_main_v43_apply, val_main_cst_14_apply, Ideal.ofBits_def, Ideal.ofBits_zero_f32, zero_add]
  unfold Msl.negSum
  refine Finset.sum_congr rfl fun k _ => ?_
  rw [idx_v43, v42_at]

/-- The row's contribution. -/
theorem v51_at (b : Fin 8192) :
    val_main_v51 (F := Ideal) a0 a1 a2 a3 (ix1 b) = Msl.rowLoss (u a0 b) (lab a1 b) (row a2) (tr a3) := by
  rw [val_main_v51_apply, v29_at, val_main_v50_apply, val_main_v46_apply, val_main_v44_apply, v36_at, val_main_v45_apply,
    val_main_cst_15_apply, val_main_v49_apply, val_main_v47_apply, v43_at, val_main_v48_apply, val_main_cst_16_apply,
    val_main_call4_v1_apply, val_main_call4_v0_apply, val_main_cst_17_apply]
  rfl

/-- The contributions summed over the rows. -/
theorem v52_at (i : S_.Idx) :
    val_main_v52 (F := Ideal) a0 a1 a2 a3 i = ∑ b : Fin 8192, Msl.rowLoss (u a0 b) (lab a1 b) (row a2) (tr a3) := by
  rw [val_main_v52_apply, val_main_cst_18_apply, Ideal.ofBits_def, Ideal.ofBits_zero_f32, zero_add, sum_idx1]
  exact Finset.sum_congr rfl fun b _ => v51_at a0 a1 a2 a3 b

/-- The last stage is the loss of the four arrays. -/
theorem v53_at (i : S_.Idx) :
    val_main_v53 (F := Ideal) a0 a1 a2 a3 i = Msl.lossOf a0 a1 a2 a3 := by
  rw [val_main_v53_apply, v52_at, val_main_cst_19_apply]
  rfl

end Stages

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev Cert.ReferenceIdeal.nD,
      r.2.mem ((c.tc : Thread Cert.ReferenceIdeal.nD Cert.ReferenceIdeal.τ).loc Cert.ReferenceIdeal.main_v53)
          = (fun _ => Cert.Proof.Msl.lossOf (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (defs (F := Ideal)) _ _).mono
    (fun _ h c => ⟨(h c).1.trans ((Read.val_main_v53_eq m c).trans (funext fun i => v53_at _ _ _ _ i)), (h c).2⟩)
    (Cert.ReferenceIdeal.Value.run (F := Ideal) m ρ)

end Cert.ReferenceIdeal.RefRun

end
-- ==== Proof.lean ====
/-
  The certificate's claims for the multi-similarity loss kernel against its plain reference, on the extended reals.

  Both programs compute ONE number from two embedding matrices and their label vectors: the loss of
  Proof/Spec.lean (`Cert.Proof.Msl.lossOf`). The kernel walks the second matrix in chunks of 1024 rows, twice per
  tile of 256 rows of the first, keeping running minima, maxima and sums, and adds the 32 tiles' sums into one
  cell (Proof/Passes.lean, Proof/TileMath.lean, Proof/KernelRun.lean); the reference forms the whole similarity
  matrix and reduces each row at once (Proof/RefRun.lean). The two agree because a minimum, a maximum and a sum do
  not depend on how their terms are grouped, because `exp (-∞) = 0` makes an exponent masked to `-∞` the same
  term as a selected zero, and because a count of ones is positive exactly when some entry is one. None of this
  needs the inputs to be finite: the precondition is never opened.

  The word-level kernel's frame and the idealized kernel's are the generated ones; the reference's frame is its
  run with the result dropped; the idealization rewrote no operation, so `preserves` is `True`.
-/
import proofs.«147075_j1769526526575_1_alg».proof.Defs
import proofs.«147075_j1769526526575_1_alg».proof.Proof.Gen.Kernel
import proofs.«147075_j1769526526575_1_alg».proof.Proof.Gen.Kernel.Frame
import proofs.«147075_j1769526526575_1_alg».proof.Proof.Gen.KernelIdeal
import proofs.«147075_j1769526526575_1_alg».proof.Proof.Gen.KernelIdeal.Frame
import proofs.«147075_j1769526526575_1_alg».proof.Proof.Gen.ReferenceIdeal
import proofs.«147075_j1769526526575_1_alg».proof.Proof.Gen.ReferenceIdeal.Run
import proofs.«147075_j1769526526575_1_alg».proof.Proof.Gen.ReferenceIdeal.Read
import proofs.«147075_j1769526526575_1_alg».proof.Proof.Gen.Pre_finite_inputs
import proofs.«147075_j1769526526575_1_alg».proof.Proof.KernelRun
import proofs.«147075_j1769526526575_1_alg».proof.Proof.RefRun
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.RefRun.run m ρ)

/-- From memories that agree on the four arguments both programs end at the loss of those arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
